-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x1024x64 : Shape := ⟨4, ![2, 16, 1024, 64]⟩
abbrev S2047x1024 : Shape := ⟨2, ![2047, 1024]⟩
abbrev S1024x1024 : Shape := ⟨2, ![1024, 1024]⟩
abbrev S_ : Shape := ⟨0, ![]⟩

class Facts : Prop where
  bcast_S_S2x16x1024x64 : S_.BroadcastsInDim S2x16x1024x64 (![] : Fin 0 → Fin S2x16x1024x64.rank)
  reducesTo_S2x16x1024x64_S_d0_1_2_3 : S2x16x1024x64.ReducesTo [0, 1, 2, 3] S_
  h_S_ : 0 < S_.numel
  bcast_S_S2047x1024 : S_.BroadcastsInDim S2047x1024 (![] : Fin 0 → Fin S2047x1024.rank)
  reducesTo_S2047x1024_S_d0_1 : S2047x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x16x1024x64 .f32) (main_arg1 : FVec F S2047x1024 .f32) (main_arg2 : FVec F S1024x1024 .f32) : IVec S_ 1 :=
  let main_v0 : FVec F S2x16x1024x64 .f32 := Host.absf main_arg0
  let main_cst : FVec F S_ .f32 := constant S_ .f32 0x7F800000#32
  let main_v1 : FVec F S2x16x1024x64 .f32 := broadcastInDim S2x16x1024x64 ![] bcast_S_S2x16x1024x64 main_cst
  let main_v2 : IVec S2x16x1024x64 1 := cmpf .olt main_v0 main_v1
  let main_c : IVec S_ 1 := constantI S_ 1 1#1
  let main_v3 : IVec S_ 1 := (fun x v => Host.reduce IntOp.andi x v reducesTo_S2x16x1024x64_S_d0_1_2_3 h_S_) main_v2 main_c
  let main_v4 : FVec F S2047x1024 .f32 := Host.absf main_arg1
  let main_cst_0 : FVec F S_ .f32 := constant S_ .f32 0x7F800000#32
  let main_v5 : FVec F S2047x1024 .f32 := broadcastInDim S2047x1024 ![] bcast_S_S2047x1024 main_cst_0
  let main_v6 : IVec S2047x1024 1 := cmpf .olt main_v4 main_v5
  let main_c_1 : IVec S_ 1 := constantI S_ 1 1#1
  let main_v7 : IVec S_ 1 := (fun x v => Host.reduce IntOp.andi x v reducesTo_S2047x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x16x1024x64 : Shape := ⟨4, ![2, 16, 1024, 64]⟩
abbrev S2047x1024 : Shape := ⟨2, ![2047, 1024]⟩
abbrev S1024x1024 : Shape := ⟨2, ![1024, 1024]⟩
abbrev S2047 : Shape := ⟨1, ![2047]⟩
abbrev S_ : Shape := ⟨0, ![]⟩
abbrev S2047x1 : Shape := ⟨2, ![2047, 1]⟩
abbrev S2048x1024 : Shape := ⟨2, ![2048, 1024]⟩
abbrev S2048x16x64 : Shape := ⟨3, ![2048, 16, 64]⟩
abbrev S16x2048x64 : Shape := ⟨3, ![16, 2048, 64]⟩
abbrev S16x2048x2048 : Shape := ⟨3, ![16, 2048, 2048]⟩
abbrev S1x1024x64 : Shape := ⟨3, ![1, 1024, 64]⟩
abbrev S1x1024x1024 : Shape := ⟨3, ![1, 1024, 1024]⟩
abbrev S1024x64 : Shape := ⟨2, ![1024, 64]⟩
abbrev S64x1024 : Shape := ⟨2, ![64, 1024]⟩
abbrev S16x2048x2047 : Shape := ⟨3, ![16, 2048, 2047]⟩
abbrev S1024 : Shape := ⟨1, ![1024]⟩
abbrev S1x1024 : Shape := ⟨2, ![1, 1024]⟩
abbrev S1024x1 : Shape := ⟨2, ![1024, 1]⟩
abbrev S1048576 : Shape := ⟨1, ![1048576]⟩
abbrev S16x2x2096128 : Shape := ⟨3, ![16, 2, 2096128]⟩
abbrev S1048576x1 : Shape := ⟨2, ![1048576, 1]⟩
abbrev S1 : Shape := ⟨1, ![1]⟩
abbrev S1x1 : Shape := ⟨2, ![1, 1]⟩
abbrev S16x2x1048576 : Shape := ⟨3, ![16, 2, 1048576]⟩
abbrev S2x16x1024x1024 : Shape := ⟨4, ![2, 16, 1024, 1024]⟩

abbrev nBuf : Space → Nat
  | .hbm => 77
  | .vmem => 11
  | .smem => 0
  | _ => 0

abbrev bufTy : (tb : Table) → Fin (tcTables nBuf tb) → BufTy
  | .hbm, ⟨0, _⟩ => ⟨S2x16x1024x64, .f32⟩
  | .hbm, ⟨1, _⟩ => ⟨S2047x1024, .f32⟩
  | .hbm, ⟨2, _⟩ => ⟨S1024x1024, .f32⟩
  | .hbm, ⟨3, _⟩ => ⟨S2047, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S2047, .i32⟩
  | .hbm, ⟨8, _⟩ => ⟨S2047, .i32⟩
  | .hbm, ⟨9, _⟩ => ⟨S_, .i32⟩
  | .hbm, ⟨10, _⟩ => ⟨S2047, .i32⟩
  | .hbm, ⟨11, _⟩ => ⟨S2047, .i32⟩
  | .hbm, ⟨12, _⟩ => ⟨S_, .i32⟩
  | .hbm, ⟨13, _⟩ => ⟨S2047, .i32⟩
  | .hbm, ⟨14, _⟩ => ⟨S2047, .i1⟩
  | .hbm, ⟨15, _⟩ => ⟨S_, .i32⟩
  | .hbm, ⟨16, _⟩ => ⟨S2047, .i32⟩
  | .hbm, ⟨17, _⟩ => ⟨S2047, .i32⟩
  | .hbm, ⟨18, _⟩ => ⟨S2047, .i32⟩
  | .hbm, ⟨19, _⟩ => ⟨S2047x1, .i32⟩
  | .hbm, ⟨20, _⟩ => ⟨S2047x1024, .f32⟩
  | .hbm, ⟨21, _⟩ => ⟨S_, .i32⟩
  | .hbm, ⟨22, _⟩ => ⟨S_, .f32⟩
  | .hbm, ⟨23, _⟩ => ⟨S2048x1024, .f32⟩
  | .hbm, ⟨24, _⟩ => ⟨S2048x1024, .bf16⟩
  | .hbm, ⟨25, _⟩ => ⟨S1024x1024, .bf16⟩
  | .hbm, ⟨26, _⟩ => ⟨S2048x1024, .f32⟩
  | .hbm, ⟨27, _⟩ => ⟨S2048x16x64, .f32⟩
  | .hbm, ⟨28, _⟩ => ⟨S16x2048x64, .f32⟩
  | .hbm, ⟨29, _⟩ => ⟨S16x2048x64, .bf16⟩
  | .hbm, ⟨30, _⟩ => ⟨S16x2048x64, .f32⟩
  | .hbm, ⟨31, _⟩ => ⟨S16x2048x64, .bf16⟩
  | .hbm, ⟨32, _⟩ => ⟨S16x2048x2048, .f32⟩
  | .hbm, ⟨33, _⟩ => ⟨S16x2048x2047, .f32⟩
  | .hbm, ⟨34, _⟩ => ⟨S1024, .i32⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1x1024, .i32⟩
  | .hbm, ⟨39, _⟩ => ⟨S1024, .i32⟩
  | .hbm, ⟨40, _⟩ => ⟨S1024x1, .i32⟩
  | .hbm, ⟨41, _⟩ => ⟨S1024x1024, .i32⟩
  | .hbm, ⟨42, _⟩ => ⟨S1024x1024, .i32⟩
  | .hbm, ⟨43, _⟩ => ⟨S1024x1024, .i32⟩
  | .hbm, ⟨44, _⟩ => ⟨S1024, .i32⟩
  | .hbm, ⟨45, _⟩ => ⟨S1024x1, .i32⟩
  | .hbm, ⟨46, _⟩ => ⟨S_, .i32⟩
  | .hbm, ⟨47, _⟩ => ⟨S1024x1, .i32⟩
  | .hbm, ⟨48, _⟩ => ⟨S1024x1, .i32⟩
  | .hbm, ⟨49, _⟩ => ⟨S1024x1024, .i32⟩
  | .hbm, ⟨50, _⟩ => ⟨S1024x1024, .i32⟩
  | .hbm, ⟨51, _⟩ => ⟨S1048576, .i32⟩
  | .hbm, ⟨52, _⟩ => ⟨S16x2x2096128, .f32⟩
  | .hbm, ⟨53, _⟩ => ⟨S_, .i32⟩
  | .hbm, ⟨54, _⟩ => ⟨S1048576, .i32⟩
  | .hbm, ⟨55, _⟩ => ⟨S1048576, .i1⟩
  | .hbm, ⟨56, _⟩ => ⟨S_, .i32⟩
  | .hbm, ⟨57, _⟩ => ⟨S1048576, .i32⟩
  | .hbm, ⟨58, _⟩ => ⟨S1048576, .i32⟩
  | .hbm, ⟨59, _⟩ => ⟨S1048576, .i32⟩
  | .hbm, ⟨60, _⟩ => ⟨S1048576x1, .i32⟩
  | .hbm, ⟨61, _⟩ => ⟨S1, .i32⟩
  | .hbm, ⟨62, _⟩ => ⟨S_, .i32⟩
  | .hbm, ⟨63, _⟩ => ⟨S1048576x1, .i32⟩
  | .hbm, ⟨64, _⟩ => ⟨S1048576x1, .i1⟩
  | .hbm, ⟨65, _⟩ => ⟨S1x1, .i32⟩
  | .hbm, ⟨66, _⟩ => ⟨S1048576x1, .i32⟩
  | .hbm, ⟨67, _⟩ => ⟨S1048576x1, .i1⟩
  | .hbm, ⟨68, _⟩ => ⟨S1048576x1, .i1⟩
  | .hbm, ⟨69, _⟩ => ⟨S_, .i1⟩
  | .hbm, ⟨70, _⟩ => ⟨S1048576, .i1⟩
  | .hbm, ⟨71, _⟩ => ⟨S16x2x1048576, .f32⟩
  | .hbm, ⟨72, _⟩ => ⟨S16x2x1048576, .i1⟩
  | .hbm, ⟨73, _⟩ => ⟨S_, .f32⟩
  | .hbm, ⟨74, _⟩ => ⟨S16x2x1048576, .f32⟩
  | .hbm, ⟨75, _⟩ => ⟨S16x2x1048576, .f32⟩
  | .hbm, ⟨76, _⟩ => ⟨S2x16x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x1024x1024, .f32⟩
  | .local _ .vmem, ⟨10, _⟩ => ⟨S1x1024x1024, .f32⟩
  | _, _ => ⟨S2x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_c_1 : Ref sig .tc := ⟨.hbm, 12, rfl⟩
abbrev main_v2 : Ref sig .tc := ⟨.hbm, 13, rfl⟩
abbrev main_v3 : Ref sig .tc := ⟨.hbm, 14, rfl⟩
abbrev main_c_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_cst : Ref sig .tc := ⟨.hbm, 73, rfl⟩
abbrev main_call2_v15 : Ref sig .tc := ⟨.hbm, 74, rfl⟩
abbrev main_v37 : Ref sig .tc := ⟨.hbm, 75, rfl⟩
abbrev main_v38 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![16, 2, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  bcast_S_S2047 : S_.BroadcastsInDim S2047 (![] : Fin 0 → Fin S2047.rank)
  bcast_S2047_S2047x1_0 : S2047.BroadcastsInDim S2047x1 (![0] : Fin 1 → Fin S2047x1.rank)
  pads_S2047x1024_S2048x1024_010_000 : S2047x1024.Pads (![0, 0] : Fin 2 → Nat) ![1, 0] ![0, 0] S2048x1024
  h_S_ : 0 < S_.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S2048x1024_S2048x16x64 : S2048x1024.ShapeCasts S2048x16x64
  transposes_S2048x16x64_S16x2048x64_1_0_2 : S2048x16x64.Transposes [1, 0, 2] S16x2048x64
  shapeCasts_S2x16x1024x64_S16x2048x64 : S2x16x1024x64.ShapeCasts S16x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  slices_S16x2048x2048_S16x2048x2047_0_0_0 : S16x2048x2048.Slices ![0, 0, 0] S16x2048x2047
  bcast_S_S1024 : S_.BroadcastsInDim S1024 (![] : Fin 0 → Fin S1024.rank)
  bcast_S1024_S1x1024_1 : S1024.BroadcastsInDim S1x1024 (![1] : Fin 1 → Fin S1x1024.rank)
  bcast_S1024_S1024x1_0 : S1024.BroadcastsInDim S1024x1 (![0] : Fin 1 → Fin S1024x1.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S_S1024x1 : S_.BroadcastsInDim S1024x1 (![] : Fin 0 → Fin S1024x1.rank)
  shapeCasts_S1024x1024_S1048576 : S1024x1024.ShapeCasts S1048576
  shapeCasts_S16x2048x2047_S16x2x2096128 : S16x2048x2047.ShapeCasts S16x2x2096128
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  bcast_S1048576_S16x2x1048576_2 : S1048576.BroadcastsInDim S16x2x1048576 (![2] : Fin 1 → Fin S16x2x1048576.rank)
  bcast_S_S16x2x1048576 : S_.BroadcastsInDim S16x2x1048576 (![] : Fin 0 → Fin S16x2x1048576.rank)
  shapeCasts_S16x2x1048576_S2x16x1024x1024 : S16x2x1048576.ShapeCasts S2x16x1024x1024
  gather_S2047x1024_S2047x1_S2047x1024_1_0_n_n_0_1_11024_wf : GatherDims.WF S2047x1024 S2047x1 S2047x1024 [1] [0] [] [0] [] 1 ![1, 1024]
  dot_S1024x1024_S1024x1024_S1024x1024_1_0_0_1_n_n_wf : DotDims.WF S1024x1024 S1024x1024 S1024x1024 [1] [0] [0] [1] [] []
  dot_S1024x64_S64x1024_S1024x1024_1_0_0_1_n_n_wf : DotDims.WF S1024x64 S64x1024 S1024x1024 [1] [0] [0] [1] [] []
  gather_S16x2x2096128_S1048576x1_S16x2x1048576_01_2_n_n_2_1_1621_wf : GatherDims.WF S16x2x2096128 S1048576x1 S16x2x1048576 [0, 1] [2] [] [2] [] 1 ![16, 2, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x1024.size a
  hwx0_0 : ∀ i : grid0.Coords, EltTy.bits .bf16 = 32 ∨ (Rect.block (s := S2048x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S2048x1024.size a
  hwx0_2 : ∀ i : grid0.Coords, EltTy.bits .f32 = 32 ∨ (Rect.block (s := S2048x1024) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S16x2048x64.size a
  hwx1_0 : ∀ i : grid1.Coords, EltTy.bits .bf16 = 32 ∨ (Rect.block (s := S16x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S16x2048x64.size a
  hwx1_1 : ∀ i : grid1.Coords, EltTy.bits .bf16 = 32 ∨ (Rect.block (s := S16x2048x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S16x2048x2048.size a
  hwx1_2 : ∀ i : grid1.Coords, EltTy.bits .f32 = 32 ∨ (Rect.block (s := S16x2048x2048) S1x1024x1024.size (cc1_transform_2 i) (hinb1_2 i)).WholeWords (EltTy.packing .f32)

variable [Facts₀]

def gather_S2047x1024_S2047x1_S2047x1024_1_0_n_n_0_1_11024 : GatherDims S2047x1024 S2047x1 S2047x1024 where
  offsetDims := [1]
  collapsedSliceDims := [0]
  operandBatchingDims := []
  startIndicesBatchingDims := []
  startIndexMap := [0]
  indexVectorDim := 1
  sliceSizes := ![1, 1024]
  wf := gather_S2047x1024_S2047x1_S2047x1024_1_0_n_n_0_1_11024_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def gather_S16x2x2096128_S1048576x1_S16x2x1048576_01_2_n_n_2_1_1621 : GatherDims S16x2x2096128 S1048576x1 S16x2x1048576 where
  offsetDims := [0, 1]
  collapsedSliceDims := [2]
  operandBatchingDims := []
  startIndicesBatchingDims := []
  startIndexMap := [2]
  indexVectorDim := 1
  sliceSizes := ![16, 2, 1]
  wf := gather_S16x2x2096128_S1048576x1_S16x2x1048576_01_2_n_n_2_1_1621_wf

abbrev win0_0 : Pipeline.Window sig grid0 :=
  Pipeline.Window.ofSpec (Memref.whole main_v10) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x16x1024x64 : Shape := ⟨4, ![2, 16, 1024, 64]⟩
abbrev S2047x1024 : Shape := ⟨2, ![2047, 1024]⟩
abbrev S1024x1024 : Shape := ⟨2, ![1024, 1024]⟩
abbrev S2047 : Shape := ⟨1, ![2047]⟩
abbrev S_ : Shape := ⟨0, ![]⟩
abbrev S2047x1 : Shape := ⟨2, ![2047, 1]⟩
abbrev S2047x16x64 : Shape := ⟨3, ![2047, 16, 64]⟩
abbrev S16x2047x64 : Shape := ⟨3, ![16, 2047, 64]⟩
abbrev S16x2048x64 : Shape := ⟨3, ![16, 2048, 64]⟩
abbrev S16x2048x2047 : Shape := ⟨3, ![16, 2048, 2047]⟩
abbrev S1024 : Shape := ⟨1, ![1024]⟩
abbrev S1x1024 : Shape := ⟨2, ![1, 1024]⟩
abbrev S1024x1 : Shape := ⟨2, ![1024, 1]⟩
abbrev S1048576 : Shape := ⟨1, ![1048576]⟩
abbrev S16x2x2096128 : Shape := ⟨3, ![16, 2, 2096128]⟩
abbrev S1048576x1 : Shape := ⟨2, ![1048576, 1]⟩
abbrev S1 : Shape := ⟨1, ![1]⟩
abbrev S1x1 : Shape := ⟨2, ![1, 1]⟩
abbrev S16x2x1048576 : Shape := ⟨3, ![16, 2, 1048576]⟩
abbrev S2x16x1024x1024 : Shape := ⟨4, ![2, 16, 1024, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2x16x1024x64, .f32⟩
  | .hbm, ⟨1, _⟩ => ⟨S2047x1024, .f32⟩
  | .hbm, ⟨2, _⟩ => ⟨S1024x1024, .f32⟩
  | .hbm, ⟨3, _⟩ => ⟨S2047, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S2047, .i32⟩
  | .hbm, ⟨8, _⟩ => ⟨S2047, .i32⟩
  | .hbm, ⟨9, _⟩ => ⟨S_, .i32⟩
  | .hbm, ⟨10, _⟩ => ⟨S2047, .i32⟩
  | .hbm, ⟨11, _⟩ => ⟨S2047, .i32⟩
  | .hbm, ⟨12, _⟩ => ⟨S_, .i32⟩
  | .hbm, ⟨13, _⟩ => ⟨S2047, .i32⟩
  | .hbm, ⟨14, _⟩ => ⟨S2047, .i1⟩
  | .hbm, ⟨15, _⟩ => ⟨S_, .i32⟩
  | .hbm, ⟨16, _⟩ => ⟨S2047, .i32⟩
  | .hbm, ⟨17, _⟩ => ⟨S2047, .i32⟩
  | .hbm, ⟨18, _⟩ => ⟨S2047, .i32⟩
  | .hbm, ⟨19, _⟩ => ⟨S2047x1, .i32⟩
  | .hbm, ⟨20, _⟩ => ⟨S2047x1024, .f32⟩
  | .hbm, ⟨21, _⟩ => ⟨S2047x1024, .f32⟩
  | .hbm, ⟨22, _⟩ => ⟨S2047x16x64, .f32⟩
  | .hbm, ⟨23, _⟩ => ⟨S16x2047x64, .f32⟩
  | .hbm, ⟨24, _⟩ => ⟨S16x2048x64, .f32⟩
  | .hbm, ⟨25, _⟩ => ⟨S16x2048x2047, .f32⟩
  | .hbm, ⟨26, _⟩ => ⟨S1024, .i32⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1x1024, .i32⟩
  | .hbm, ⟨31, _⟩ => ⟨S1024, .i32⟩
  | .hbm, ⟨32, _⟩ => ⟨S1024x1, .i32⟩
  | .hbm, ⟨33, _⟩ => ⟨S1024x1024, .i32⟩
  | .hbm, ⟨34, _⟩ => ⟨S1024x1024, .i32⟩
  | .hbm, ⟨35, _⟩ => ⟨S1024x1024, .i32⟩
  | .hbm, ⟨36, _⟩ => ⟨S1024, .i32⟩
  | .hbm, ⟨37, _⟩ => ⟨S1024x1, .i32⟩
  | .hbm, ⟨38, _⟩ => ⟨S_, .i32⟩
  | .hbm, ⟨39, _⟩ => ⟨S1024x1, .i32⟩
  | .hbm, ⟨40, _⟩ => ⟨S1024x1, .i32⟩
  | .hbm, ⟨41, _⟩ => ⟨S1024x1024, .i32⟩
  | .hbm, ⟨42, _⟩ => ⟨S1024x1024, .i32⟩
  | .hbm, ⟨43, _⟩ => ⟨S1048576, .i32⟩
  | .hbm, ⟨44, _⟩ => ⟨S16x2x2096128, .f32⟩
  | .hbm, ⟨45, _⟩ => ⟨S_, .i32⟩
  | .hbm, ⟨46, _⟩ => ⟨S1048576, .i32⟩
  | .hbm, ⟨47, _⟩ => ⟨S1048576, .i1⟩
  | .hbm, ⟨48, _⟩ => ⟨S_, .i32⟩
  | .hbm, ⟨49, _⟩ => ⟨S1048576, .i32⟩
  | .hbm, ⟨50, _⟩ => ⟨S1048576, .i32⟩
  | .hbm, ⟨51, _⟩ => ⟨S1048576, .i32⟩
  | .hbm, ⟨52, _⟩ => ⟨S1048576x1, .i32⟩
  | .hbm, ⟨53, _⟩ => ⟨S1, .i32⟩
  | .hbm, ⟨54, _⟩ => ⟨S_, .i32⟩
  | .hbm, ⟨55, _⟩ => ⟨S1048576x1, .i32⟩
  | .hbm, ⟨56, _⟩ => ⟨S1048576x1, .i1⟩
  | .hbm, ⟨57, _⟩ => ⟨S1x1, .i32⟩
  | .hbm, ⟨58, _⟩ => ⟨S1048576x1, .i32⟩
  | .hbm, ⟨59, _⟩ => ⟨S1048576x1, .i1⟩
  | .hbm, ⟨60, _⟩ => ⟨S1048576x1, .i1⟩
  | .hbm, ⟨61, _⟩ => ⟨S_, .i1⟩
  | .hbm, ⟨62, _⟩ => ⟨S1048576, .i1⟩
  | .hbm, ⟨63, _⟩ => ⟨S16x2x1048576, .f32⟩
  | .hbm, ⟨64, _⟩ => ⟨S16x2x1048576, .i1⟩
  | .hbm, ⟨65, _⟩ => ⟨S_, .f32⟩
  | .hbm, ⟨66, _⟩ => ⟨S16x2x1048576, .f32⟩
  | .hbm, ⟨67, _⟩ => ⟨S16x2x1048576, .f32⟩
  | .hbm, ⟨68, _⟩ => ⟨S2x16x1024x1024, .f32⟩
  | _, _ => ⟨S2x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_c_1 : Ref sig .tc := ⟨.hbm, 12, rfl⟩
abbrev main_v2 : Ref sig .tc := ⟨.hbm, 13, rfl⟩
abbrev main_v3 : Ref sig .tc := ⟨.hbm, 14, rfl⟩
abbrev main_c_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v31 : Ref sig .tc := ⟨.hbm, 67, rfl⟩
abbrev main_v32 : Ref sig .tc := ⟨.hbm, 68, rfl⟩

abbrev nD : Nat := 1
abbrev τ : Topo := Topo.v7x

variable {F : FTy → Type} [FloatOps F]

class Facts₀ : Prop where
  bcast_S_S2047 : S_.BroadcastsInDim S2047 (![] : Fin 0 → Fin S2047.rank)
  bcast_S2047_S2047x1_0 : S2047.BroadcastsInDim S2047x1 (![0] : Fin 1 → Fin S2047x1.rank)
  shapeCasts_S2047x1024_S2047x16x64 : S2047x1024.ShapeCasts S2047x16x64
  transposes_S2047x16x64_S16x2047x64_1_0_2 : S2047x16x64.Transposes [1, 0, 2] S16x2047x64
  shapeCasts_S2x16x1024x64_S16x2048x64 : S2x16x1024x64.ShapeCasts S16x2048x64
  bcast_S_S1024 : S_.BroadcastsInDim S1024 (![] : Fin 0 → Fin S1024.rank)
  bcast_S1024_S1x1024_1 : S1024.BroadcastsInDim S1x1024 (![1] : Fin 1 → Fin S1x1024.rank)
  bcast_S1024_S1024x1_0 : S1024.BroadcastsInDim S1024x1 (![0] : Fin 1 → Fin S1024x1.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S_S1024x1 : S_.BroadcastsInDim S1024x1 (![] : Fin 0 → Fin S1024x1.rank)
  shapeCasts_S1024x1024_S1048576 : S1024x1024.ShapeCasts S1048576
  shapeCasts_S16x2048x2047_S16x2x2096128 : S16x2048x2047.ShapeCasts S16x2x2096128
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  h_S_ : 0 < S_.numel
  bcast_S1048576_S16x2x1048576_2 : S1048576.BroadcastsInDim S16x2x1048576 (![2] : Fin 1 → Fin S16x2x1048576.rank)
  bcast_S_S16x2x1048576 : S_.BroadcastsInDim S16x2x1048576 (![] : Fin 0 → Fin S16x2x1048576.rank)
  shapeCasts_S16x2x1048576_S2x16x1024x1024 : S16x2x1048576.ShapeCasts S2x16x1024x1024
  gather_S2047x1024_S2047x1_S2047x1024_1_0_n_n_0_1_11024_wf : GatherDims.WF S2047x1024 S2047x1 S2047x1024 [1] [0] [] [0] [] 1 ![1, 1024]
  dot_S2047x1024_S1024x1024_S2047x1024_1_0_0_1_n_n_wf : DotDims.WF S2047x1024 S1024x1024 S2047x1024 [1] [0] [0] [1] [] []
  dot_S16x2048x64_S16x2047x64_S16x2048x2047_2_2_1_1_0_0_wf : DotDims.WF S16x2048x64 S16x2047x64 S16x2048x2047 [2] [2] [1] [1] [0] [0]
  gather_S16x2x2096128_S1048576x1_S16x2x1048576_01_2_n_n_2_1_1621_wf : GatherDims.WF S16x2x2096128 S1048576x1 S16x2x1048576 [0, 1] [2] [] [2] [] 1 ![16, 2, 1]

variable [Facts₀]

def gather_S2047x1024_S2047x1_S2047x1024_1_0_n_n_0_1_11024 : GatherDims S2047x1024 S2047x1 S2047x1024 where
  offsetDims := [1]
  collapsedSliceDims := [0]
  operandBatchingDims := []
  startIndicesBatchingDims := []
  startIndexMap := [0]
  indexVectorDim := 1
  sliceSizes := ![1, 1024]
  wf := gather_S2047x1024_S2047x1_S2047x1024_1_0_n_n_0_1_11024_wf
def dot_S2047x1024_S1024x1024_S2047x1024_1_0_0_1_n_n : DotDims S2047x1024 S1024x1024 S2047x1024 where
  lhsContracting := [1]
  rhsContracting := [0]
  lhsNonContracting := [0]
  rhsNonContracting := [1]
  lhsBatch := []
  rhsBatch := []
  wf := dot_S2047x1024_S1024x1024_S2047x1024_1_0_0_1_n_n_wf
def dot_S16x2048x64_S16x2047x64_S16x2048x2047_2_2_1_1_0_0 : DotDims S16x2048x64 S16x2047x64 S16x2048x2047 where
  lhsContracting := [2]
  rhsContracting := [2]
  lhsNonContracting := [1]
  rhsNonContracting := [1]
  lhsBatch := [0]
  rhsBatch := [0]
  wf := dot_S16x2048x64_S16x2047x64_S16x2048x2047_2_2_1_1_0_0_wf
def gather_S16x2x2096128_S1048576x1_S16x2x1048576_01_2_n_n_2_1_1621 : GatherDims S16x2x2096128 S1048576x1 S16x2x1048576 where
  offsetDims := [0, 1]
  collapsedSliceDims := [2]
  operandBatchingDims := []
  startIndicesBatchingDims := []
  startIndexMap := [2]
  indexVectorDim := 1
  sliceSizes := ![16, 2, 1]
  wf := gather_S16x2x2096128_S1048576x1_S16x2x1048576_01_2_n_n_2_1_1621_wf

class Facts : Prop extends Facts₀ where

variable [Facts]
-- ==== Proof.KShift.lean ====
/-
  The two stretches of integer and layout operations that the kernel's program shares with the reference, each as one function.

  `rows`: the rows of the position table at the indices 0 … 2046 clipped to [0, 2046] and then wrapped where negative
  (a gather of whole rows). `shift`: the relative shift. The scores [16, 2048, 2047] are re-read as [16, 2, 1024 · 2047];
  for query position s and key position r the flat index is (1023 + r − s) + 2047 s, wrapped where negative; an index
  outside [0, 1024 · 2047) reads the fill value; the gathered [16, 2, 1024 · 1024] array is re-read as [2, 16, 1024, 1024].
  Nothing here is evaluated: the certificate only needs that both programs apply these same functions.
-/
import proofs.«142479_j88115549045052_1_alg».proof.Proof.Gen.KernelIdeal

noncomputable section

namespace Cert.KernelIdeal.Shift

open Idealize.ShloMosaic Cert.KernelIdeal Cert.KernelIdeal.Facts₀

variable {F : FTy → Type} [FloatOps F]

/-- The rows of the position table that the clipped, wrapped index vector selects. -/
def rows (P : FVec F S2047x1024 .f32) : FVec F S2047x1024 .f32 :=
  let v0 : IVec S2047 32 := iotaInDim S2047 32 0
  let lo : IVec S2047 32 := broadcastInDim S2047 ![] bcast_S_S2047 (id (constantI S_ 32 0#32))
  let a : IVec S2047 32 := maxsi lo v0
  let hi : IVec S2047 32 := broadcastInDim S2047 ![] bcast_S_S2047 (id (constantI S_ 32 2046#32))
  let v1 : IVec S2047 32 := minsi hi a
  let v2 : IVec S2047 32 := broadcastInDim S2047 ![] bcast_S_S2047 (constantI S_ 32 0#32)
  let v3 : IVec S2047 1 := cmpi .slt v1 v2
  let v4 : IVec S2047 32 := broadcastInDim S2047 ![] bcast_S_S2047 (constantI S_ 32 2047#32)
  let v5 : IVec S2047 32 := addi v1 v4
  let v6 : IVec S2047 32 := select v3 v5 v1
  let v7 : IVec S2047x1 32 := broadcastInDim S2047x1 ![0] bcast_S2047_S2047x1_0 v6
  Host.gather gather_S2047x1024_S2047x1_S2047x1024_1_0_n_n_0_1_11024 P v7

/-- The flat indices (1023 + r − s) + 2047 s of the relative shift, as a vector over s · 1024 + r. -/
def relIdx : IVec S1048576 32 :=
  let i0 : IVec S1024 32 := iotaInDim S1024 32 0
  let b0 : IVec S1024 32 := broadcastInDim S1024 ![] bcast_S_S1024 (constantI S_ 32 1023#32)
  let r0 : IVec S1024 32 := addi b0 i0
  let r1 : IVec S1x1024 32 := broadcastInDim S1x1024 ![1] bcast_S1024_S1x1024_1 r0
  let i1 : IVec S1024 32 := iotaInDim S1024 32 0
  let s1 : IVec S1024x1 32 := broadcastInDim S1024x1 ![0] bcast_S1024_S1024x1_0 i1
  let r2 : IVec S1024x1024 32 := broadcastInDim S1024x1024 ![0, 1] bcast_S1x1024_S1024x1024_0_1 r1
  let s2 : IVec S1024x1024 32 := broadcastInDim S1024x1024 ![0, 1] bcast_S1024x1_S1024x1024_0_1 s1
  let d : IVec S1024x1024 32 := subi r2 s2
  let i2 : IVec S1024 32 := iotaInDim S1024 32 0
  let s3 : IVec S1024x1 32 := broadcastInDim S1024x1 ![0] bcast_S1024_S1024x1_0 i2
  let w : IVec S1024x1 32 := broadcastInDim S1024x1 ![] bcast_S_S1024x1 (constantI S_ 32 2047#32)
  let sw : IVec S1024x1 32 := muli s3 w
  let sw2 : IVec S1024x1024 32 := broadcastInDim S1024x1024 ![0, 1] bcast_S1024x1_S1024x1024_0_1 sw
  let f : IVec S1024x1024 32 := addi d sw2
  shapeCast S1048576 f shapeCasts_S1024x1024_S1048576

/-- The gather along the flat axis with its range test: entry (h, b, k) of the result is entry (h, b, ix k) of `x`
    where ix k, wrapped where negative, lies in [0, 1024 · 2047), and the fill value elsewhere. -/
def take (x : FVec F S16x2x2096128 .f32) (ix : IVec S1048576 32) : FVec F S16x2x1048576 .f32 :=
  let z : IVec S1048576 32 := broadcastInDim S1048576 ![] bcast_S_S1048576 (constantI S_ 32 0#32)
  let neg : IVec S1048576 1 := cmpi .slt ix z
  let n : IVec S1048576 32 := broadcastInDim S1048576 ![] bcast_S_S1048576 (constantI S_ 32 2096128#32)
  let wr : IVec S1048576 32 := addi ix n
  let jx : IVec S1048576 32 := select neg wr ix
  let jc : IVec S1048576x1 32 := broadcastInDim S1048576x1 ![0] bcast_S1048576_S1048576x1_0 jx
  let z1 : IVec S1048576x1 32 := broadcastInDim S1048576x1 ![] bcast_S_S1048576x1 (constantI S_ 32 0#32)
  let ge : IVec S1048576x1 1 := cmpi .sge jc z1
  let top1 : IVec S1x1 32 := broadcastInDim S1x1 ![1] bcast_S1_S1x1_1 (constantI S1 32 2096127#32)
  let top : IVec S1048576x1 32 := broadcastInDim S1048576x1 ![0, 1] bcast_S1x1_S1048576x1_0_1 top1
  let le : IVec S1048576x1 1 := cmpi .sle jc top
  let inb : IVec S1048576x1 1 := andi ge le
  let ok : IVec S1048576 1 := Host.reduce IntOp.andi inb (constantI S_ 1 1#1) reducesTo_S1048576x1_S1048576_d1 h_S_
  let g : FVec F S16x2x1048576 .f32 := Host.gather gather_S16x2x2096128_S1048576x1_S16x2x1048576_01_2_n_n_2_1_1621 x jc
  let okb : IVec S16x2x1048576 1 := broadcastInDim S16x2x1048576 ![2] bcast_S1048576_S16x2x1048576_2 ok
  let fill : FVec F S16x2x1048576 .f32 := broadcastInDim S16x2x1048576 ![] bcast_S_S16x2x1048576 (constant S_ .f32 0x7FC00000#32)
  select okb g fill

/-- The relative shift of the score array. -/
def shift (X : FVec F S16x2048x2047 .f32) : FVec F S2x16x1024x1024 .f32 :=
  shapeCast S2x16x1024x1024
    (take (shapeCast S16x2x2096128 X shapeCasts_S16x2048x2047_S16x2x2096128) relIdx)
    shapeCasts_S16x2x1048576_S2x16x1024x1024

end Cert.KernelIdeal.Shift

end
-- ==== Proof.KHost.lean ====
/-
  The host stretches of the kernel's program read: what each region finds in its input arrays, and what the program
  returns, as functions of the arrays one step earlier.

  Before the first region: its left operand is the selected rows of the position table with one zero row appended,
  its right operand the dense matrix (each narrowed to the sixteen-bit format, which changes nothing over the extended
  reals). Between the regions: the first region's result [2048, 1024] is re-read as [2048, 16, 64] and its first two
  axes exchanged, and the query [2, 16, 1024, 64] is re-read as [16, 2048, 64]. After the second region: the last
  column of its result is dropped and the relative shift applied. Each stretch is first read as a function of ARBITRARY
  contents before it, and then at the contents the run really has there.
-/
import proofs.«142479_j88115549045052_1_alg».proof.Proof.Gen.KernelIdeal.Frame
import proofs.«142479_j88115549045052_1_alg».proof.Proof.KShift
import Idealize.ShloMosaic.Lib.StableHlo.Run

set_option maxRecDepth 16384

noncomputable section

namespace Cert.KernelIdeal.HostRead

open Cert.KernelIdeal Cert.KernelIdeal.Gen
open Idealize.ShloMosaic Idealize.ShloMosaic.TcCoe Idealize.SL.Sem Idealize.ShloMosaic.StableHlo

variable {F : FTy → Type} [FloatOps F]

/-! ## Each stretch from arbitrary contents -/

/-- The stretch before the first region leaves the query where it was. -/
theorem head_arg0 (V : Valuation τ sig (Elt F)) :
    after hostOps0_4 (after hostOps0_3 (after hostOps0_2 (after hostOps0_1 (after hostOps0 V)))) (Proc.devRef .tc main_arg0)
      = V (Proc.devRef .tc main_arg0) := by
  simp only [hostOps0, hostOps0_1, hostOps0_2, hostOps0_3, hostOps0_4]
  after_results

set_option maxHeartbeats 4000000 in
/-- The stretch before the first region leaves, as its left operand, the selected rows of the position table with one
    padding row appended. -/
theorem head_v10 (V : Valuation τ sig (Elt F)) :
    after hostOps0_4 (after hostOps0_3 (after hostOps0_2 (after hostOps0_1 (after hostOps0 V)))) (Proc.devRef .tc main_v10)
      = truncf .bf16 (pad S2048x1024 ![0, 0] ![1, 0] ![0, 0] (Shift.rows (V (Proc.devRef .tc main_arg1)))
          (sitofp .f32 (constantI S_ 32 0#32)) pads_S2047x1024_S2048x1024_010_000 h_S_) bitsLt_bf16_f32 := by
  simp only [hostOps0, hostOps0_1, hostOps0_2, hostOps0_3, hostOps0_4]
  after_results_simp
  rfl

/-- … and, as its right operand, the dense matrix. -/
theorem head_v11 (V : Valuation τ sig (Elt F)) :
    after hostOps0_4 (after hostOps0_3 (after hostOps0_2 (after hostOps0_1 (after hostOps0 V)))) (Proc.devRef .tc main_v11)
      = truncf .bf16 (V (Proc.devRef .tc main_arg2)) bitsLt_bf16_f32 := by
  simp only [hostOps0, hostOps0_1, hostOps0_2, hostOps0_3, hostOps0_4]
  after_results

/-- The stretch between the regions leaves, as the second region's right operand, the first region's result re-read
    by heads. -/
theorem mid_v15 (V : Valuation τ sig (Elt F)) :
    after hostOps1 V (Proc.devRef .tc main_v15)
      = truncf .bf16 (transpose S16x2048x64 [1, 0, 2]
          (shapeCast S2048x16x64 (V (Proc.devRef .tc main_v12)) shapeCasts_S2048x1024_S2048x16x64)
          transposes_S2048x16x64_S16x2048x64_1_0_2) bitsLt_bf16_f32 := by
  simp only [hostOps1]
  after_results
  rfl

/-- … and, as its left operand, the query re-read as [16, 2048, 64]. -/
theorem mid_v17 (V : Valuation τ sig (Elt F)) :
    after hostOps1 V (Proc.devRef .tc main_v17)
      = truncf .bf16 (shapeCast S16x2048x64 (V (Proc.devRef .tc main_arg0)) shapeCasts_S2x16x1024x64_S16x2048x64)
          bitsLt_bf16_f32 := by
  simp only [hostOps1]
  after_results
  rfl

/-- The stretch after the second region: the flat indices of the shift. -/
theorem tail_v35 (V : Valuation τ sig (Elt F)) :
    after hostOps2 V (Proc.devRef .tc main_v35) = Shift.relIdx := by
  simp only [hostOps2]
  after_results_simp
  rfl

/-- … the second region's result without its last column, re-read along one flat axis. -/
theorem tail_v36 (V : Valuation τ sig (Elt F)) :
    after hostOps2 V (Proc.devRef .tc main_v36)
      = shapeCast S16x2x2096128 (extractStridedSlice S16x2048x2047 ![0, 0, 0] (V (Proc.devRef .tc main_v18))
          slices_S16x2048x2048_S16x2048x2047_0_0_0) shapeCasts_S16x2048x2047_S16x2x2096128 := by
  simp only [hostOps2]
  after_results_simp
  rfl

set_option maxHeartbeats 2000000 in
/-- … the gather with its range test, from arbitrary operands. -/
theorem tail_v37 (V : Valuation τ sig (Elt F)) :
    after hostOps2_1 V (Proc.devRef .tc main_v37)
      = Shift.take (V (Proc.devRef .tc main_v36)) (V (Proc.devRef .tc main_v35)) := by
  simp only [hostOps2_1, TRef.unary, TRef.binary, TRef.ternary, TRef.nullary, TRef.toBuf, TRef.ofBuf, cast_eq]
  after_results_simp
  rfl

/-- … and the last re-reading. -/
theorem tail_v38' (V : Valuation τ sig (Elt F)) :
    after hostOps2_2 V (Proc.devRef .tc main_v38)
      = shapeCast S2x16x1024x1024 (V (Proc.devRef .tc main_v37)) shapeCasts_S16x2x1048576_S2x16x1024x1024 := by
  simp only [hostOps2_2]
  after_results
  rfl

/-- The stretch after the second region returns the relative shift of that region's result without its last column. -/
theorem tail_v38 (V : Valuation τ sig (Elt F)) :
    after hostOps2_2 (after hostOps2_1 (after hostOps2 V)) (Proc.devRef .tc main_v38)
      = Shift.shift (extractStridedSlice S16x2048x2047 ![0, 0, 0] (V (Proc.devRef .tc main_v18))
          slices_S16x2048x2048_S16x2048x2047_0_0_0) := by
  rw [tail_v38', tail_v37, tail_v36, tail_v35]
  rfl

/-! ## The same at the run's boundaries -/

variable (m : (ℓ : Loc nD τ sig) → Buf (Elt F) ℓ) (ρ : Dev nD → PrngReg)

/-- The query, as the first region's exit leaves it: untouched since the launch. -/
theorem W6_arg0 (c : Dev nD) : W6 m ρ c (Proc.devRef .tc main_arg0) = m ((c : Thread nD τ).loc main_arg0) :=
  (W6_of_ne m ρ c main_arg0 (by decide)).trans (head_arg0 (W0 m ρ c))

theorem W5_v10 (c : Dev nD) :
    W5 m ρ c (Proc.devRef .tc main_v10)
      = truncf .bf16 (pad S2048x1024 ![0, 0] ![1, 0] ![0, 0] (Shift.rows (m ((c : Thread nD τ).loc main_arg1)))
          (sitofp .f32 (constantI S_ 32 0#32)) pads_S2047x1024_S2048x1024_010_000 h_S_) bitsLt_bf16_f32 :=
  head_v10 (W0 m ρ c)

theorem W5_v11 (c : Dev nD) :
    W5 m ρ c (Proc.devRef .tc main_v11) = truncf .bf16 (m ((c : Thread nD τ).loc main_arg2)) bitsLt_bf16_f32 :=
  head_v11 (W0 m ρ c)

theorem W7_v15 (c : Dev nD) :
    W7 m ρ c (Proc.devRef .tc main_v15)
      = truncf .bf16 (transpose S16x2048x64 [1, 0, 2]
          (shapeCast S2048x16x64 (W6 m ρ c (Proc.devRef .tc main_v12)) shapeCasts_S2048x1024_S2048x16x64)
          transposes_S2048x16x64_S16x2048x64_1_0_2) bitsLt_bf16_f32 :=
  mid_v15 (W6 m ρ c)

theorem W7_v17 (c : Dev nD) :
    W7 m ρ c (Proc.devRef .tc main_v17)
      = truncf .bf16 (shapeCast S16x2048x64 (m ((c : Thread nD τ).loc main_arg0)) shapeCasts_S2x16x1024x64_S16x2048x64)
          bitsLt_bf16_f32 := by
  rw [← W6_arg0 m ρ c]
  exact mid_v17 (W6 m ρ c)

theorem W11_v38 (c : Dev nD) :
    W11 m ρ c (Proc.devRef .tc main_v38)
      = Shift.shift (extractStridedSlice S16x2048x2047 ![0, 0, 0] (W8 m ρ c (Proc.devRef .tc main_v18))
          slices_S16x2048x2048_S16x2048x2047_0_0_0) :=
  tail_v38 (W8 m ρ c)

end Cert.KernelIdeal.HostRead

end
-- ==== Proof.Spec.lean ====
/-
  What both programs compute before the relative shift, as one function of the three arguments.

  The position table E (2047 rows of 1024 features) is projected by the dense matrix W: row m of the projection
  has, in column j, Σ_k E(m, k) · W(k, j). The 1024 columns are sixteen heads of sixty-four features, head h owning
  columns 64 h … 64 h + 63. The relative score of query row n of head h against position m is the inner product,
  over the head's sixty-four features d, of Q(h, n, d) with the projected row m at column 64 h + d. On the extended
  reals this is a plain double sum: no rounding, and no order of summation is left in it.
-/
import Idealize.ShloMosaic.PureOps.Ideal
import Idealize.ShloMosaic.Lib.ValueIdx

noncomputable section

namespace Cert.Spec

open Idealize.ShloMosaic Idealize.ShloMosaic.ValueIdx

/-- Column of head `h`'s feature `d` among the 1024 projected features. -/
def col (h : Fin 16) (d : Fin 64) : Fin 1024 := ⟨h.val * 64 + d.val, by have := h.isLt; have := d.isLt; omega⟩

/-- Entry (m, j) of the position table projected by the dense matrix. -/
def proj (E : (⟨2, ![2047, 1024]⟩ : Shape).Idx → EReal) (W : (⟨2, ![1024, 1024]⟩ : Shape).Idx → EReal)
    (m : Fin 2047) (j : Fin 1024) : EReal :=
  ∑ k : Fin 1024, E (ix2 m k) * W (ix2 k j)

/-- The relative score of query row `n` of head `h` against position `m`. -/
def score (Q : (⟨3, ![16, 2048, 64]⟩ : Shape).Idx → EReal) (E : (⟨2, ![2047, 1024]⟩ : Shape).Idx → EReal)
    (W : (⟨2, ![1024, 1024]⟩ : Shape).Idx → EReal) (h : Fin 16) (n : Fin 2048) (m : Fin 2047) : EReal :=
  ∑ d : Fin 64, Q (ix3 h n d) * proj E W m (col h d)

/-- The scores as one array over (head, query row, position). -/
def scoreArr (Q : (⟨3, ![16, 2048, 64]⟩ : Shape).Idx → EReal) (E : (⟨2, ![2047, 1024]⟩ : Shape).Idx → EReal)
    (W : (⟨2, ![1024, 1024]⟩ : Shape).Idx → EReal) : (⟨3, ![16, 2048, 2047]⟩ : Shape).Idx → EReal :=
  fun i => score Q E W (i 0) (i 1) (i 2)

theorem scoreArr_ix3 (Q : (⟨3, ![16, 2048, 64]⟩ : Shape).Idx → EReal) (E : (⟨2, ![2047, 1024]⟩ : Shape).Idx → EReal)
    (W : (⟨2, ![1024, 1024]⟩ : Shape).Idx → EReal) (h : Fin 16) (n : Fin 2048) (m : Fin 2047) :
    scoreArr Q E W (ix3 h n m) = score Q E W h n m := rfl

/-- A 2048×1024 array times a 1024×1024 array, entry by entry: Σ_k A(p, k) · B(k, q). -/
def denseAt (A : (⟨2, ![2048, 1024]⟩ : Shape).Idx → EReal) (B : (⟨2, ![1024, 1024]⟩ : Shape).Idx → EReal)
    (p : Fin 2048) (q : Fin 1024) : EReal :=
  ∑ k : Fin 1024, A (ix2 p k) * B (ix2 k q)

/-- The same as one array. -/
def dense (A : (⟨2, ![2048, 1024]⟩ : Shape).Idx → EReal) (B : (⟨2, ![1024, 1024]⟩ : Shape).Idx → EReal) :
    (⟨2, ![2048, 1024]⟩ : Shape).Idx → EReal :=
  fun i => denseAt A B (i 0) (i 1)

theorem dense_ix2 (A : (⟨2, ![2048, 1024]⟩ : Shape).Idx → EReal) (B : (⟨2, ![1024, 1024]⟩ : Shape).Idx → EReal)
    (p : Fin 2048) (q : Fin 1024) : dense A B (ix2 p q) = denseAt A B p q := rfl

/-- Per head h, rows of X against rows of Y over the sixty-four features: Σ_d X(h, n, d) · Y(h, m, d). -/
def batchedAt (X Y : (⟨3, ![16, 2048, 64]⟩ : Shape).Idx → EReal) (h : Fin 16) (n m : Fin 2048) : EReal :=
  ∑ d : Fin 64, X (ix3 h n d) * Y (ix3 h m d)

/-- The same as one array. -/
def batched (X Y : (⟨3, ![16, 2048, 64]⟩ : Shape).Idx → EReal) : (⟨3, ![16, 2048, 2048]⟩ : Shape).Idx → EReal :=
  fun i => batchedAt X Y (i 0) (i 1) (i 2)

theorem batched_ix3 (X Y : (⟨3, ![16, 2048, 64]⟩ : Shape).Idx → EReal) (h : Fin 16) (n m : Fin 2048) :
    batched X Y (ix3 h n m) = batchedAt X Y h n m := rfl

end Cert.Spec

end
-- ==== Proof.KValue.lean ====
/-
  The kernel's two products composed, read at one entry of the score array.

  Entry (h, n, m) of the second product, m < 2047, is Σ_d Q(h, n, d) · P(h, m, d), where P is the first product
  re-read by heads: P(h, m, d) is entry (m, 64 h + d) of the padded position rows times the dense matrix,
  Σ_k E'(m, k) · W(k, 64 h + d); and row m < 2047 of the padded rows E' is row m of the rows E themselves (the
  appended row is never read once the last column of the scores is dropped). Narrowing to the sixteen-bit format is
  the identity over the extended reals. So the entry is the double sum of the specification.
-/
import proofs.«142479_j88115549045052_1_alg».proof.Proof.Gen.KernelIdeal
import proofs.«142479_j88115549045052_1_alg».proof.Proof.Spec
import Idealize.ShloMosaic.Lib.Pipeline.Value
import Idealize.ShloMosaic.Lib.ValueIdx
import Idealize.ShloMosaic.Lib.KernelVsHost

noncomputable section

namespace Cert.KernelIdeal.KValue

open Cert.KernelIdeal Cert.KernelIdeal.Facts₀
open Idealize.ShloMosaic Idealize.ShloMosaic.ValueIdx

/-- The scores the two regions compute, without the last column, are the specification's. -/
theorem score_eq (Q : FVec Ideal S16x2048x64 .f32) (E : FVec Ideal S2047x1024 .f32) (W : FVec Ideal S1024x1024 .f32)
    (z : FVec Ideal S_ .f32) :
    extractStridedSlice S16x2048x2047 ![0, 0, 0]
      (Cert.Spec.batched (truncf .bf16 Q bitsLt_bf16_f32 : FVec Ideal S16x2048x64 .bf16)
        (truncf .bf16 (transpose S16x2048x64 [1, 0, 2]
          (shapeCast S2048x16x64
            (Cert.Spec.dense (truncf .bf16 (pad S2048x1024 ![0, 0] ![1, 0] ![0, 0] E z pads_S2047x1024_S2048x1024_010_000 h_S_) bitsLt_bf16_f32 : FVec Ideal S2048x1024 .bf16)
              (truncf .bf16 W bitsLt_bf16_f32 : FVec Ideal S1024x1024 .bf16) : FVec Ideal S2048x1024 .f32)
            shapeCasts_S2048x1024_S2048x16x64)
          transposes_S2048x16x64_S16x2048x64_1_0_2 : FVec Ideal S16x2048x64 .f32) bitsLt_bf16_f32 : FVec Ideal S16x2048x64 .bf16))
      slices_S16x2048x2048_S16x2048x2047_0_0_0
      = Cert.Spec.scoreArr Q E W := by
  funext i
  obtain ⟨h, n, mm, rfl⟩ : ∃ (h : Fin 16) (n : Fin 2048) (mm : Fin 2047), i = ix3 h n mm := ⟨i 0, i 1, i 2, eq_ix3 i⟩
  have hm : mm.val < 2048 := by have := mm.isLt; omega
  refine (extractStridedSlice_apply _ _ _ (ix3 h n mm) (ix3 h n (⟨mm.val, hm⟩ : Fin 2048)) (fun a => ?_)).trans ?_
  · match a with
    | ⟨0, _⟩ => show h.val = 0 + h.val; omega
    | ⟨1, _⟩ => show n.val = 0 + n.val; omega
    | ⟨2, _⟩ => show mm.val = 0 + mm.val; omega
  rw [Cert.Spec.batched_ix3, Cert.Spec.scoreArr_ix3]
  unfold Cert.Spec.batchedAt Cert.Spec.score
  refine Finset.sum_congr rfl fun d _ => ?_
  show Q (ix3 h n d) * _ = Q (ix3 h n d) * _
  refine congrArg (Q (ix3 h n d) * ·) ?_
  refine (truncf_apply (φ := .f32) (ψ := .bf16) _ bitsLt_bf16_f32 _).trans ?_
  refine (transpose_apply _ _ _ (ix3 h (⟨mm.val, hm⟩ : Fin 2048) d) (ix3 (⟨mm.val, hm⟩ : Fin 2048) h d) (fun b => ?_)).trans ?_
  · match b with
    | ⟨0, _⟩ => rfl
    | ⟨1, _⟩ => rfl
    | ⟨2, _⟩ => rfl
  refine (shapeCast_apply _ _ (ix3 (⟨mm.val, hm⟩ : Fin 2048) h d) (ix2 (⟨mm.val, hm⟩ : Fin 2048) (Cert.Spec.col h d)) ?_).trans ?_
  · rw [Shape.rowMajor_val_two, Shape.rowMajor_val_three]
    show mm.val * 1024 + (h.val * 64 + d.val) = (mm.val * 16 + h.val) * 64 + d.val
    omega
  rw [Cert.Spec.dense_ix2]
  unfold Cert.Spec.denseAt Cert.Spec.proj
  refine Finset.sum_congr rfl fun k _ => ?_
  show pad S2048x1024 ![0, 0] ![1, 0] ![0, 0] E z pads_S2047x1024_S2048x1024_010_000 h_S_ (ix2 (⟨mm.val, hm⟩ : Fin 2048) k) * W (ix2 k (Cert.Spec.col h d))
      = E (ix2 mm k) * W (ix2 k (Cert.Spec.col h d))
  refine congrArg (· * W (ix2 k (Cert.Spec.col h d))) ?_
  refine pad_apply_of_inside _ _ _ _ _ _ _ _ (ix2 mm k) (fun a => ?_)
  match a with
  | ⟨0, _⟩ => show mm.val = 0 + mm.val * (0 + 1); omega
  | ⟨1, _⟩ => show k.val = 0 + k.val * (0 + 1); omega

end Cert.KernelIdeal.KValue

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.KReg0.lean ====
/-
  The dense product's region: its output array as one function of the two operand arrays.

  The region walks the 2048×1024 left operand in two row blocks of 1024 rows; at each of the two points the body
  multiplies the point's 1024×1024 row block by the whole 1024×1024 right operand and writes the product back as the
  same row block of the output. Entry (p, q) of a block product is Σ_k A(1024·i + p, k) · B(k, q), which is entry
  (1024·i + p, q) of the full product; the two row blocks tile the output, so the output array ends holding the full
  product, entry by entry, on the extended reals.
-/
import proofs.«142479_j88115549045052_1_alg».proof.Proof.Gen.KernelIdeal.Frame
import proofs.«142479_j88115549045052_1_alg».proof.Proof.Spec
import proofs.«142479_j88115549045052_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegValue

open Cert.KernelIdeal Cert.KernelIdeal.Gen Idealize.ShloMosaic Idealize.ShloMosaic.TcCoe Idealize.ShloMosaic.ValueIdx Idealize.SL.Sem
open Idealize.ShloMosaic.Pipeline (Dat)

/-- The zero offsets of a whole-block access, as a constant function. -/
theorem zeroOffsets2 : (![0, 0] : Fin 2 → Nat) = fun _ => 0 := funext fun a => by fin_cases a <;> rfl

/-- The body's stored value at entry (p, q): the two loaded blocks multiplied, Σ_k x0(p, k) · x1(k, q). -/
theorem densePayload_apply (x0 x1 : FVec Ideal S1024x1024 .bf16) (p q : Fin 1024) :
    k0_pay1 (F := Ideal) x0 x1 (ix2 p q) = ∑ k : Fin 1024, x0 (ix2 p k) * x1 (ix2 k q) := by
  unfold k0_pay1
  rw [shapeCast_self, shapeCast_self]
  exact PlainDot.matmul_zero_apply 1024 1024 1024 x0 x1 p q

/-- The block indices at a point, decided over the two points: the left operand's row block is the output's, every
    other block index is zero, and the output's row block is 0 or 1. -/
theorem denseBlockIdx : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 1
    ∧ win0_2.index t (1 : Fin 2) = 0 :=
  (by decide +kernel : ∀ t : Fin grid0.N, _)

/-- Each of the two row blocks of the output is some point's. -/
theorem denseBlockOnto : ∀ r : Fin 2, ∃ t : Fin cfg0.N, win0_2.index t = ![r.val, 0] :=
  (by decide +kernel : ∀ r : Fin 2, ∃ t : Fin grid0.N, win0_2.index t = ![r.val, 0])

section
variable (V : (c : Dev nD) → (b : Ref sig .tc) → Buf (Elt Ideal) ((c : Thread nD τ).loc b))

/-- The left operand's block at a point, entry (p, k): row 1024·i + p of the array, i the point's row block. -/
theorem denseLhsBlock_apply (c : Dev nD) (t : Fin cfg0.N) (p k : Fin 1024) (r : Fin 2048)
    (hr : r.val = win0_2.index t (0 : Fin 2) * 1024 + p.val) :
    (iblk0 V c 0 t : Vec Ideal S1024x1024 .bf16) (ix2 p k) = (V c main_v10 : S2048x1024.Idx → EReal) (ix2 r k) := by
  obtain ⟨e0, e1, -, -, -, -⟩ := denseBlockIdx t
  unfold iblk0
  rw [View.read_apply]
  show V c main_v10 _ = V c main_v10 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * k.val = k.val; rw [e1]; omega

/-- The right operand's block at a point is the whole array. -/
theorem denseRhsBlock_apply (c : Dev nD) (t : Fin cfg0.N) (k q : Fin 1024) :
    (iblk0 V c 1 t : Vec Ideal S1024x1024 .bf16) (ix2 k q) = (V c main_v11 : S1024x1024.Idx → EReal) (ix2 k q) := by
  obtain ⟨-, -, e2, e3, -, -⟩ := denseBlockIdx t
  unfold iblk0
  rw [View.read_apply]
  show V c main_v11 _ = V c main_v11 _
  congr 1
  funext a
  apply Fin.ext
  match a with
  | ⟨0, _⟩ => show win0_1.index t (0 : Fin 2) * 1024 + 1 * k.val = k.val; rw [e2]; omega
  | ⟨1, _⟩ => show win0_1.index t (1 : Fin 2) * 1024 + 1 * q.val = q.val; rw [e3]; omega

/-- What a point writes back is its row block of the full product of the two operand arrays. -/
theorem denseFlushed (c : Dev nD) (t : Fin cfg0.N) :
    (dat0 V c).flushed 2 t = ((cfg0.win 2).blk t).view.read (Elt Ideal) (Cert.Spec.dense (V c main_v10) (V c main_v11)) := by
  show (cfg0.win 2).cut (grid0.coords t) ((dat0 V c).after 2 t) = _
  rw [after0_2]
  unfold out0_2
  rw [View.canon_unit_zero zeroOffsets2]
  simp only [View.ld_unit_zero (S := S1024x1024) zeroOffsets2]
  obtain ⟨-, -, -, -, e4, e5⟩ := denseBlockIdx t
  funext j
  obtain ⟨p, q, rfl⟩ : ∃ (p : Fin 1024) (q : Fin 1024), j = ix2 p q := ⟨j 0, j 1, eq_ix2 j⟩
  have hp : p.val < 1024 := p.isLt
  have hr : win0_2.index t (0 : Fin 2) * 1024 + p.val < 2048 := by omega
  show k0_pay1 (F := Ideal) (iblk0 V c 0 t) (iblk0 V c 1 t) (ix2 p q)
    = Cert.Spec.dense (V c main_v10) (V c main_v11) (((cfg0.win 2).blk t).view.emb (ix2 p q))
  have hemb : ((cfg0.win 2).blk t).view.emb (ix2 p q) = (ix2 (⟨win0_2.index t (0 : Fin 2) * 1024 + p.val, hr⟩ : Fin 2048) q : S2048x1024.Idx) := by
    funext a
    apply Fin.ext
    match a with
    | ⟨0, _⟩ => show win0_2.index t (0 : Fin 2) * 1024 + 1 * p.val = win0_2.index t (0 : Fin 2) * 1024 + p.val; omega
    | ⟨1, _⟩ => show win0_2.index t (1 : Fin 2) * 1024 + 1 * q.val = q.val; rw [e5]; omega
  rw [hemb, Cert.Spec.dense_ix2]
  refine (densePayload_apply _ _ p q).trans ?_
  unfold Cert.Spec.denseAt
  refine Finset.sum_congr rfl fun k _ => ?_
  rw [denseLhsBlock_apply V c t p k ⟨_, hr⟩ rfl, denseRhsBlock_apply V c t k q]

end

/-- An index of the output array is in a point's block iff each coordinate is in the block's range on its axis. -/
theorem mem_denseBlock (t : Fin cfg0.N) (i : S2048x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v12).slice (win0_2.rect t)).set ↔ _
  rw [View.set_slice_whole, Rect.mem_set_unit]
  exact Iff.rfl

/-- Every index of the output array is in the block of the point of its row block: row r is in block r / 1024. -/
theorem denseCovered (i : S2048x1024.Idx) :
    ∃ t : Fin cfg0.N, (cfg0.win 2).flush t = true ∧ i ∈ ((cfg0.win 2).blk t).view.set := by
  have hi0 : (i 0).val < 2048 := (i 0).isLt
  have hi1 : (i 1).val < 1024 := (i 1).isLt
  obtain ⟨t, ht⟩ := denseBlockOnto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_denseBlock]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The region's output array, after its two points, is the full product of the two operand arrays as the region
    finds them. -/
theorem region0 (V : (c : Dev nD) → (b : Ref sig .tc) → Buf (Elt Ideal) ((c : Thread nD τ).loc b)) (c : Dev nD) :
    (dat0 V c).arrAt 2 cfg0.N = Cert.Spec.dense (V c main_v10) (V c main_v11) :=
  (dat0 V c).arrAt_eq_of_cover 2 _ (fun t _ => denseFlushed V c t) denseCovered

end Cert.KernelIdeal.RegValue

end
-- ==== Proof.KReg1.lean ====
/-
  The batched product's region: its output array as one function of the two operand arrays.

  Per head h, the region multiplies the 2048×64 rows of the first operand by the transposed 2048×64 rows of the second,
  in blocks: point (h, i, j) loads row block i of head h of the first operand and row block j of head h of the second
  (1024 rows of 64 features each), forms the 1024×1024 product of the one by the transpose of the other, and writes it
  back as block (h, i, j) of the output. Entry (p, q) of that block product is Σ_d X(h, 1024·i + p, d) · Y(h, 1024·j + q, d),
  which is entry (h, 1024·i + p, 1024·j + q) of the per-head product of rows against rows; the 16·2·2 blocks tile the
  output, so the output array ends holding that product, entry by entry, on the extended reals.
-/
import proofs.«142479_j88115549045052_1_alg».proof.Proof.Gen.KernelIdeal.Frame
import proofs.«142479_j88115549045052_1_alg».proof.Proof.Spec
import proofs.«142479_j88115549045052_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegValue

open Cert.KernelIdeal Cert.KernelIdeal.Gen Idealize.ShloMosaic Idealize.ShloMosaic.TcCoe Idealize.ShloMosaic.ValueIdx Idealize.SL.Sem
open Idealize.ShloMosaic.Pipeline (Dat)

/-- The zero offsets of a whole-block access, as a constant function. -/
theorem zeroOffsets3 : (![0, 0, 0] : Fin 3 → Nat) = fun _ => 0 := funext fun a => by fin_cases a <;> rfl

/-- The body's stored value at entry (0, p, q): rows of the first block against rows of the second over the
    sixty-four features, Σ_d x0(0, p, d) · x1(0, q, d). -/
theorem batchedPayload_apply (x0 x1 : FVec Ideal S1x1024x64 .bf16) (u : Fin 1) (p q : Fin 1024) :
    k1_pay1 (F := Ideal) x0 x1 (ix3 u p q) = ∑ d : Fin 64, x0 (ix3 (0 : Fin 1) p d) * x1 (ix3 (0 : Fin 1) q d) := by
  unfold k1_pay1
  refine (shapeCast_ab_1ab_apply _ _ u p q).trans ?_
  refine (PlainDot.matmul_zero_apply 1024 64 1024 _ _ p q).trans ?_
  refine Finset.sum_congr rfl fun d _ => ?_
  rw [shapeCast_1ab_ab_apply, transpose_ix2_apply, shapeCast_1ab_ab_apply]

/-- The block indices at a point, decided over the sixty-four points: the first operand's block is (head, row block of
    the output, 0), the second's is (head, column block of the output, 0), and the output's block indices stay in
    their ranges. -/
theorem batchedBlockIdx : ∀ t : Fin cfg1.N, win1_0.index t (0 : Fin 3) = win1_2.index t (0 : Fin 3)
    ∧ win1_0.index t (1 : Fin 3) = win1_2.index t (1 : Fin 3)
    ∧ win1_0.index t (2 : Fin 3) = 0
    ∧ win1_1.index t (0 : Fin 3) = win1_2.index t (0 : Fin 3)
    ∧ win1_1.index t (1 : Fin 3) = win1_2.index t (2 : Fin 3)
    ∧ win1_1.index t (2 : Fin 3) = 0
    ∧ win1_2.index t (0 : Fin 3) ≤ 15
    ∧ win1_2.index t (1 : Fin 3) ≤ 1
    ∧ win1_2.index t (2 : Fin 3) ≤ 1 :=
  (by decide +kernel : ∀ t : Fin grid1.N, _)

/-- Each block of the output — a head, a row block, a column block — is some point's. -/
theorem batchedBlockOnto : ∀ (h : Fin 16) (r s : Fin 2), ∃ t : Fin cfg1.N, win1_2.index t = ![h.val, r.val, s.val] :=
  (by decide +kernel : ∀ (h : Fin 16) (r s : Fin 2), ∃ t : Fin grid1.N, win1_2.index t = ![h.val, r.val, s.val])

section
variable (V : (c : Dev nD) → (b : Ref sig .tc) → Buf (Elt Ideal) ((c : Thread nD τ).loc b))

/-- The first operand's block at a point, entry (0, p, d): head h and row 1024·i + p of the array, (h, i) the point's
    head and row block. -/
theorem batchedLhsBlock_apply (c : Dev nD) (t : Fin cfg1.N) (u : Fin 1) (p : Fin 1024) (d : Fin 64) (h : Fin 16) (n : Fin 2048)
    (hh : h.val = win1_2.index t (0 : Fin 3)) (hn : n.val = win1_2.index t (1 : Fin 3) * 1024 + p.val) :
    (iblk1 V c 0 t : Vec Ideal S1x1024x64 .bf16) (ix3 u p d) = (V c main_v17 : S16x2048x64.Idx → EReal) (ix3 h n d) := by
  obtain ⟨e0, e1, e2, -, -, -, -, -, -⟩ := batchedBlockIdx t
  have hu : u.val = 0 := by omega
  unfold iblk1
  rw [View.read_apply]
  show V c main_v17 _ = V c main_v17 _
  congr 1
  funext a
  apply Fin.ext
  match a with
  | ⟨0, _⟩ => show win1_0.index t (0 : Fin 3) * 1 + 1 * u.val = h.val; rw [e0, hh, hu]; omega
  | ⟨1, _⟩ => show win1_0.index t (1 : Fin 3) * 1024 + 1 * p.val = n.val; rw [e1, hn]; omega
  | ⟨2, _⟩ => show win1_0.index t (2 : Fin 3) * 64 + 1 * d.val = d.val; rw [e2]; omega

/-- The second operand's block at a point, entry (0, q, d): head h and row 1024·j + q of the array, (h, j) the point's
    head and column block. -/
theorem batchedRhsBlock_apply (c : Dev nD) (t : Fin cfg1.N) (u : Fin 1) (q : Fin 1024) (d : Fin 64) (h : Fin 16) (m : Fin 2048)
    (hh : h.val = win1_2.index t (0 : Fin 3)) (hm : m.val = win1_2.index t (2 : Fin 3) * 1024 + q.val) :
    (iblk1 V c 1 t : Vec Ideal S1x1024x64 .bf16) (ix3 u q d) = (V c main_v15 : S16x2048x64.Idx → EReal) (ix3 h m d) := by
  obtain ⟨-, -, -, e3, e4, e5, -, -, -⟩ := batchedBlockIdx t
  have hu : u.val = 0 := by omega
  unfold iblk1
  rw [View.read_apply]
  show V c main_v15 _ = V c main_v15 _
  congr 1
  funext a
  apply Fin.ext
  match a with
  | ⟨0, _⟩ => show win1_1.index t (0 : Fin 3) * 1 + 1 * u.val = h.val; rw [e3, hh, hu]; omega
  | ⟨1, _⟩ => show win1_1.index t (1 : Fin 3) * 1024 + 1 * q.val = m.val; rw [e4, hm]; omega
  | ⟨2, _⟩ => show win1_1.index t (2 : Fin 3) * 64 + 1 * d.val = d.val; rw [e5]; omega

/-- What a point writes back is its block of the per-head product of rows against rows of the two operand arrays. -/
theorem batchedFlushed (c : Dev nD) (t : Fin cfg1.N) :
    (dat1 V c).flushed 2 t = ((cfg1.win 2).blk t).view.read (Elt Ideal) (Cert.Spec.batched (V c main_v17) (V c main_v15)) := by
  show (cfg1.win 2).cut (grid1.coords t) ((dat1 V c).after 2 t) = _
  rw [after1_2]
  unfold out1_2
  rw [View.canon_unit_zero zeroOffsets3]
  simp only [View.ld_unit_zero (S := S1x1024x64) zeroOffsets3]
  obtain ⟨-, -, -, -, -, -, b0, b1, b2⟩ := batchedBlockIdx t
  funext j
  obtain ⟨u, p, q, rfl⟩ : ∃ (u : Fin 1) (p : Fin 1024) (q : Fin 1024), j = ix3 u p q := ⟨j 0, j 1, j 2, eq_ix3 j⟩
  have hu : u.val = 0 := by omega
  have hp : p.val < 1024 := p.isLt
  have hq : q.val < 1024 := q.isLt
  have hh : win1_2.index t (0 : Fin 3) < 16 := by omega
  have hn : win1_2.index t (1 : Fin 3) * 1024 + p.val < 2048 := by omega
  have hm : win1_2.index t (2 : Fin 3) * 1024 + q.val < 2048 := by omega
  show k1_pay1 (F := Ideal) (iblk1 V c 0 t) (iblk1 V c 1 t) (ix3 u p q)
    = Cert.Spec.batched (V c main_v17) (V c main_v15) (((cfg1.win 2).blk t).view.emb (ix3 u p q))
  have hemb : ((cfg1.win 2).blk t).view.emb (ix3 u p q)
      = (ix3 (⟨win1_2.index t (0 : Fin 3), hh⟩ : Fin 16) (⟨win1_2.index t (1 : Fin 3) * 1024 + p.val, hn⟩ : Fin 2048)
          (⟨win1_2.index t (2 : Fin 3) * 1024 + q.val, hm⟩ : Fin 2048) : S16x2048x2048.Idx) := by
    funext a
    apply Fin.ext
    match a with
    | ⟨0, _⟩ => show win1_2.index t (0 : Fin 3) * 1 + 1 * u.val = win1_2.index t (0 : Fin 3); rw [hu]; omega
    | ⟨1, _⟩ => show win1_2.index t (1 : Fin 3) * 1024 + 1 * p.val = win1_2.index t (1 : Fin 3) * 1024 + p.val; omega
    | ⟨2, _⟩ => show win1_2.index t (2 : Fin 3) * 1024 + 1 * q.val = win1_2.index t (2 : Fin 3) * 1024 + q.val; omega
  rw [hemb, Cert.Spec.batched_ix3]
  refine (batchedPayload_apply _ _ u p q).trans ?_
  unfold Cert.Spec.batchedAt
  refine Finset.sum_congr rfl fun d _ => ?_
  rw [batchedLhsBlock_apply V c t 0 p d ⟨_, hh⟩ ⟨_, hn⟩ rfl rfl, batchedRhsBlock_apply V c t 0 q d ⟨_, hh⟩ ⟨_, hm⟩ rfl rfl]

end

/-- An index of the output array is in a point's block iff each coordinate is in the block's range on its axis. -/
theorem mem_batchedBlock (t : Fin cfg1.N) (i : S16x2048x2048.Idx) :
    i ∈ ((cfg1.win 2).blk t).view.set ↔ ∀ a : Fin 3, win1_2.index t a * S1x1024x1024.size a ≤ (i a).val
      ∧ (i a).val < win1_2.index t a * S1x1024x1024.size a + S1x1024x1024.size a := by
  show i ∈ ((View.whole main_v18).slice (win1_2.rect t)).set ↔ _
  rw [View.set_slice_whole, Rect.mem_set_unit]
  exact Iff.rfl

/-- Every index (h, n, m) of the output array is in the block of the point (h, n / 1024, m / 1024). -/
theorem batchedCovered (i : S16x2048x2048.Idx) :
    ∃ t : Fin cfg1.N, (cfg1.win 2).flush t = true ∧ i ∈ ((cfg1.win 2).blk t).view.set := by
  have hi0 : (i 0).val < 16 := (i 0).isLt
  have hi1 : (i 1).val < 2048 := (i 1).isLt
  have hi2 : (i 2).val < 2048 := (i 2).isLt
  obtain ⟨t, ht⟩ := batchedBlockOnto ⟨(i 0).val, hi0⟩ ⟨(i 1).val / 1024, by omega⟩ ⟨(i 2).val / 1024, by omega⟩
  have q0 : win1_2.index t (0 : Fin 3) = (i 0).val := congrFun ht 0
  have q1 : win1_2.index t (1 : Fin 3) = (i 1).val / 1024 := congrFun ht 1
  have q2 : win1_2.index t (2 : Fin 3) = (i 2).val / 1024 := congrFun ht 2
  refine ⟨t, flush1_2 t, ?_⟩
  rw [mem_batchedBlock]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 1024 ≤ (i 2).val ∧ (i 2).val < win1_2.index t (2 : Fin 3) * 1024 + 1024; omega

/-- The region's output array, after its sixty-four points, is the per-head product of rows against rows of the two
    operand arrays as the region finds them. -/
theorem region1 (V : (c : Dev nD) → (b : Ref sig .tc) → Buf (Elt Ideal) ((c : Thread nD τ).loc b)) (c : Dev nD) :
    (dat1 V c).arrAt 2 cfg1.N = Cert.Spec.batched (V c main_v17) (V c main_v15) :=
  (dat1 V c).arrAt_eq_of_cover 2 _ (fun t _ => batchedFlushed V c t) batchedCovered

end Cert.KernelIdeal.RegValue

end
-- ==== Proof.KFinal.lean ====
/-
  What the kernel's program returns, as one function of its three arguments: the relative shift of the specification's
  score array. The second region's result array is the batched product of what the stretch before it left in its
  operands; those are the query re-read by heads and the first region's result re-read by heads; the first region's
  result is the dense product of the padded position rows and the dense matrix.
-/
import proofs.«142479_j88115549045052_1_alg».proof.Proof.KHost
import proofs.«142479_j88115549045052_1_alg».proof.Proof.KValue
import proofs.«142479_j88115549045052_1_alg».proof.Proof.KReg0
import proofs.«142479_j88115549045052_1_alg».proof.Proof.KReg1

set_option maxRecDepth 16384

noncomputable section

namespace Cert.KernelIdeal.Final

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first region's result array. -/
theorem v12_eq (c : Dev nD) :
    W6 m ρ c (Proc.devRef .tc main_v12)
      = Cert.Spec.dense (W5 m ρ c (Proc.devRef .tc main_v10)) (W5 m ρ c (Proc.devRef .tc main_v11)) :=
  (W6_arr m ρ c 2).trans (RegValue.region0 (V5 m ρ) c)

/-- The second region's result array. -/
theorem v18_eq (c : Dev nD) :
    W8 m ρ c (Proc.devRef .tc main_v18)
      = Cert.Spec.batched (W7 m ρ c (Proc.devRef .tc main_v17)) (W7 m ρ c (Proc.devRef .tc main_v15)) :=
  (W8_arr m ρ c 2).trans (RegValue.region1 (V7 m ρ) c)

/-- The returned array. -/
theorem result (c : Dev nD) :
    W11 m ρ c (Proc.devRef .tc main_v38)
      = Shift.shift (F := Ideal) (Cert.Spec.scoreArr
          (shapeCast S16x2048x64 (m ((c : Thread nD τ).loc main_arg0)) shapeCasts_S2x16x1024x64_S16x2048x64)
          (Shift.rows (F := Ideal) (m ((c : Thread nD τ).loc main_arg1))) (m ((c : Thread nD τ).loc main_arg2))) := by
  rw [HostRead.W11_v38, v18_eq, HostRead.W7_v17, HostRead.W7_v15, v12_eq, HostRead.W5_v10, HostRead.W5_v11]
  exact congrArg (Shift.shift (F := Ideal)) (KValue.score_eq _ _ _ _)

end Cert.KernelIdeal.Final

end
-- ==== Proof.RShift.lean ====
/-
  The two stretches of integer and layout operations that the reference shares with the kernel's program, each as one function.

  `rows`: the rows of the position table at the indices 0 … 2046 clipped to [0, 2046] and then wrapped where negative
  (a gather of whole rows). `shift`: the relative shift. The scores [16, 2048, 2047] are re-read as [16, 2, 1024 · 2047];
  for query position s and key position r the flat index is (1023 + r − s) + 2047 s, wrapped where negative; an index
  outside [0, 1024 · 2047) reads the fill value; the gathered [16, 2, 1024 · 1024] array is re-read as [2, 16, 1024, 1024].
  Nothing here is evaluated: the certificate only needs that both programs apply these same functions.
-/
import proofs.«142479_j88115549045052_1_alg».proof.Proof.Gen.ReferenceIdeal

noncomputable section

namespace Cert.ReferenceIdeal.Shift

open Idealize.ShloMosaic Cert.ReferenceIdeal Cert.ReferenceIdeal.Facts₀

variable {F : FTy → Type} [FloatOps F]

/-- The rows of the position table that the clipped, wrapped index vector selects. -/
def rows (P : FVec F S2047x1024 .f32) : FVec F S2047x1024 .f32 :=
  let v0 : IVec S2047 32 := iotaInDim S2047 32 0
  let lo : IVec S2047 32 := broadcastInDim S2047 ![] bcast_S_S2047 (id (constantI S_ 32 0#32))
  let a : IVec S2047 32 := maxsi lo v0
  let hi : IVec S2047 32 := broadcastInDim S2047 ![] bcast_S_S2047 (id (constantI S_ 32 2046#32))
  let v1 : IVec S2047 32 := minsi hi a
  let v2 : IVec S2047 32 := broadcastInDim S2047 ![] bcast_S_S2047 (constantI S_ 32 0#32)
  let v3 : IVec S2047 1 := cmpi .slt v1 v2
  let v4 : IVec S2047 32 := broadcastInDim S2047 ![] bcast_S_S2047 (constantI S_ 32 2047#32)
  let v5 : IVec S2047 32 := addi v1 v4
  let v6 : IVec S2047 32 := select v3 v5 v1
  let v7 : IVec S2047x1 32 := broadcastInDim S2047x1 ![0] bcast_S2047_S2047x1_0 v6
  Host.gather gather_S2047x1024_S2047x1_S2047x1024_1_0_n_n_0_1_11024 P v7

/-- The flat indices (1023 + r − s) + 2047 s of the relative shift, as a vector over s · 1024 + r. -/
def relIdx : IVec S1048576 32 :=
  let i0 : IVec S1024 32 := iotaInDim S1024 32 0
  let b0 : IVec S1024 32 := broadcastInDim S1024 ![] bcast_S_S1024 (constantI S_ 32 1023#32)
  let r0 : IVec S1024 32 := addi b0 i0
  let r1 : IVec S1x1024 32 := broadcastInDim S1x1024 ![1] bcast_S1024_S1x1024_1 r0
  let i1 : IVec S1024 32 := iotaInDim S1024 32 0
  let s1 : IVec S1024x1 32 := broadcastInDim S1024x1 ![0] bcast_S1024_S1024x1_0 i1
  let r2 : IVec S1024x1024 32 := broadcastInDim S1024x1024 ![0, 1] bcast_S1x1024_S1024x1024_0_1 r1
  let s2 : IVec S1024x1024 32 := broadcastInDim S1024x1024 ![0, 1] bcast_S1024x1_S1024x1024_0_1 s1
  let d : IVec S1024x1024 32 := subi r2 s2
  let i2 : IVec S1024 32 := iotaInDim S1024 32 0
  let s3 : IVec S1024x1 32 := broadcastInDim S1024x1 ![0] bcast_S1024_S1024x1_0 i2
  let w : IVec S1024x1 32 := broadcastInDim S1024x1 ![] bcast_S_S1024x1 (constantI S_ 32 2047#32)
  let sw : IVec S1024x1 32 := muli s3 w
  let sw2 : IVec S1024x1024 32 := broadcastInDim S1024x1024 ![0, 1] bcast_S1024x1_S1024x1024_0_1 sw
  let f : IVec S1024x1024 32 := addi d sw2
  shapeCast S1048576 f shapeCasts_S1024x1024_S1048576

/-- The gather along the flat axis with its range test: entry (h, b, k) of the result is entry (h, b, ix k) of `x`
    where ix k, wrapped where negative, lies in [0, 1024 · 2047), and the fill value elsewhere. -/
def take (x : FVec F S16x2x2096128 .f32) (ix : IVec S1048576 32) : FVec F S16x2x1048576 .f32 :=
  let z : IVec S1048576 32 := broadcastInDim S1048576 ![] bcast_S_S1048576 (constantI S_ 32 0#32)
  let neg : IVec S1048576 1 := cmpi .slt ix z
  let n : IVec S1048576 32 := broadcastInDim S1048576 ![] bcast_S_S1048576 (constantI S_ 32 2096128#32)
  let wr : IVec S1048576 32 := addi ix n
  let jx : IVec S1048576 32 := select neg wr ix
  let jc : IVec S1048576x1 32 := broadcastInDim S1048576x1 ![0] bcast_S1048576_S1048576x1_0 jx
  let z1 : IVec S1048576x1 32 := broadcastInDim S1048576x1 ![] bcast_S_S1048576x1 (constantI S_ 32 0#32)
  let ge : IVec S1048576x1 1 := cmpi .sge jc z1
  let top1 : IVec S1x1 32 := broadcastInDim S1x1 ![1] bcast_S1_S1x1_1 (constantI S1 32 2096127#32)
  let top : IVec S1048576x1 32 := broadcastInDim S1048576x1 ![0, 1] bcast_S1x1_S1048576x1_0_1 top1
  let le : IVec S1048576x1 1 := cmpi .sle jc top
  let inb : IVec S1048576x1 1 := andi ge le
  let ok : IVec S1048576 1 := Host.reduce IntOp.andi inb (constantI S_ 1 1#1) reducesTo_S1048576x1_S1048576_d1 h_S_
  let g : FVec F S16x2x1048576 .f32 := Host.gather gather_S16x2x2096128_S1048576x1_S16x2x1048576_01_2_n_n_2_1_1621 x jc
  let okb : IVec S16x2x1048576 1 := broadcastInDim S16x2x1048576 ![2] bcast_S1048576_S16x2x1048576_2 ok
  let fill : FVec F S16x2x1048576 .f32 := broadcastInDim S16x2x1048576 ![] bcast_S_S16x2x1048576 (constant S_ .f32 0x7FC00000#32)
  select okb g fill

/-- The relative shift of the score array. -/
def shift (X : FVec F S16x2048x2047 .f32) : FVec F S2x16x1024x1024 .f32 :=
  shapeCast S2x16x1024x1024
    (take (shapeCast S16x2x2096128 X shapeCasts_S16x2048x2047_S16x2x2096128) relIdx)
    shapeCasts_S16x2x1048576_S2x16x1024x1024

end Cert.ReferenceIdeal.Shift

end
-- ==== Proof.RefRun.lean ====
/-
  The reference's run.

  The reference program is one straight line of host operations: @main's own thirty-seven, the six of the clip of
  the position indices and the twenty-three of the final take (its inner select among them) set in at their call
  sites. Every weakly fair execution of it terminates; the result buffer then holds the operations' composed term
  of the three arguments' launch contents, and the arguments are unchanged. The composed term is stated through the
  two shared stretches (the gathered rows of the position table; the relative shift) and, between them, the two
  products: the position rows projected by the dense matrix, regrouped per head, and the queries against them.
-/
import proofs.«142479_j88115549045052_1_alg».proof.Proof.Gen.ReferenceIdeal
import proofs.«142479_j88115549045052_1_alg».proof.Proof.RShift
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- the two host products between the shared stretches -/
def pre (Q : FVec F S16x2048x64 .f32) (E : FVec F S2047x1024 .f32) (W : FVec F S1024x1024 .f32) : FVec F S16x2048x2047 .f32 :=
  Host.dotGeneral dot_S16x2048x64_S16x2047x64_S16x2048x2047_2_2_1_1_0_0 none Q
    (transpose S16x2047x64 [1, 0, 2] (shapeCast S2047x16x64 (Host.dotGeneral dot_S2047x1024_S1024x1024_S2047x1024_1_0_0_1_n_n none E W) shapeCasts_S2047x1024_S2047x16x64) transposes_S2047x16x64_S16x2047x64_1_0_2)

/-! ## The operations, in four stretches -/

/-- Up to the gather of the position rows: @main's first three operations, the clip's six set in at its call site,
    and the nine that wrap the clipped indices and gather. -/
abbrev opsA : List (HloOp τ sig (Elt F)) :=
  [ nullary main_v0 (iotaInDim S2047 32 0),
    nullary main_c (constantI S_ 32 0#32),
    nullary main_c_0 (constantI S_ 32 2046#32),
    TRef.unary (.of main_c) main_call0.v0 id,
    TRef.unary main_call0.v0 main_call0.v1 (broadcastInDim S2047 ![] bcast_S_S2047),
    TRef.binary main_call0.v1 (.of main_v0) main_call0.v2 maxsi,
    TRef.unary (.of main_c_0) main_call0.v3 id,
    TRef.unary main_call0.v3 main_call0.v4 (broadcastInDim S2047 ![] bcast_S_S2047),
    TRef.binary main_call0.v4 main_call0.v2 main_call0.v5 minsi,
    nullary main_c_1 (constantI S_ 32 0#32),
    unary main_c_1 main_v2 (broadcastInDim S2047 ![] bcast_S_S2047 : (⟨S_, .i32⟩ : BufTy).Contents (Elt F) → (⟨S2047, .i32⟩ : BufTy).Contents (Elt F)),
    binary main_v1 main_v2 main_v3 (cmpi .slt : (⟨S2047, .i32⟩ : BufTy).Contents (Elt F) → (⟨S2047, .i32⟩ : BufTy).Contents (Elt F) → (⟨S2047, .i1⟩ : BufTy).Contents (Elt F)),
    nullary main_c_2 (constantI S_ 32 2047#32),
    unary main_c_2 main_v4 (broadcastInDim S2047 ![] bcast_S_S2047 : (⟨S_, .i32⟩ : BufTy).Contents (Elt F) → (⟨S2047, .i32⟩ : BufTy).Contents (Elt F)),
    binary main_v1 main_v4 main_v5 (addi : (⟨S2047, .i32⟩ : BufTy).Contents (Elt F) → (⟨S2047, .i32⟩ : BufTy).Contents (Elt F) → (⟨S2047, .i32⟩ : BufTy).Contents (Elt F)),
    ternary main_v3 main_v5 main_v1 main_v6 (select : (⟨S2047, .i1⟩ : BufTy).Contents (Elt F) → (⟨S2047, .i32⟩ : BufTy).Contents (Elt F) → (⟨S2047, .i32⟩ : BufTy).Contents (Elt F) → (⟨S2047, .i32⟩ : BufTy).Contents (Elt F)),
    unary main_v6 main_v7 (broadcastInDim S2047x1 ![0] bcast_S2047_S2047x1_0 : (⟨S2047, .i32⟩ : BufTy).Contents (Elt F) → (⟨S2047x1, .i32⟩ : BufTy).Contents (Elt F)),
    binary main_arg1 main_v7 main_v8 ((fun x i => Host.gather gather_S2047x1024_S2047x1_S2047x1024_1_0_n_n_0_1_11024 x i) : (⟨S2047x1024, .f32⟩ : BufTy).Contents (Elt F) → (⟨S2047x1, .i32⟩ : BufTy).Contents (Elt F) → (⟨S2047x1024, .f32⟩ : BufTy).Contents (Elt F)) ]

/-- The two products with the regrouping between them. -/
abbrev opsB : List (HloOp τ sig (Elt F)) :=
  [ binary main_v8 main_arg2 main_v9 ((fun l r => Host.dotGeneral dot_S2047x1024_S1024x1024_S2047x1024_1_0_0_1_n_n none l r) : (⟨S2047x1024, .f32⟩ : BufTy).Contents (Elt F) → (⟨S1024x1024, .f32⟩ : BufTy).Contents (Elt F) → (⟨S2047x1024, .f32⟩ : BufTy).Contents (Elt F)),
    reshape main_v9 main_v10 rfl shapeCasts_S2047x1024_S2047x16x64,
    unary main_v10 main_v11 ((transpose S16x2047x64 [1, 0, 2] · transposes_S2047x16x64_S16x2047x64_1_0_2) : (⟨S2047x16x64, .f32⟩ : BufTy).Contents (Elt F) → (⟨S16x2047x64, .f32⟩ : BufTy).Contents (Elt F)),
    reshape main_arg0 main_v12 rfl shapeCasts_S2x16x1024x64_S16x2048x64,
    binary main_v12 main_v11 main_v13 ((fun l r => Host.dotGeneral dot_S16x2048x64_S16x2047x64_S16x2048x2047_2_2_1_1_0_0 none l r) : (⟨S16x2048x64, .f32⟩ : BufTy).Contents (Elt F) → (⟨S16x2047x64, .f32⟩ : BufTy).Contents (Elt F) → (⟨S16x2048x2047, .f32⟩ : BufTy).Contents (Elt F)) ]

/-- The flat indices of the relative shift. -/
abbrev opsC : List (HloOp τ sig (Elt F)) :=
  [ nullary main_v14 (iotaInDim S1024 32 0),
    nullary main_c_3 (constantI S_ 32 1023#32),
    unary main_c_3 main_v15 (broadcastInDim S1024 ![] bcast_S_S1024 : (⟨S_, .i32⟩ : BufTy).Contents (Elt F) → (⟨S1024, .i32⟩ : BufTy).Contents (Elt F)),
    binary main_v15 main_v14 main_v16 (addi : (⟨S1024, .i32⟩ : BufTy).Contents (Elt F) → (⟨S1024, .i32⟩ : BufTy).Contents (Elt F) → (⟨S1024, .i32⟩ : BufTy).Contents (Elt F)),
    unary main_v16 main_v17 (broadcastInDim S1x1024 ![1] bcast_S1024_S1x1024_1 : (⟨S1024, .i32⟩ : BufTy).Contents (Elt F) → (⟨S1x1024, .i32⟩ : BufTy).Contents (Elt F)),
    nullary main_v18 (iotaInDim S1024 32 0),
    unary main_v18 main_v19 (broadcastInDim S1024x1 ![0] bcast_S1024_S1024x1_0 : (⟨S1024, .i32⟩ : BufTy).Contents (Elt F) → (⟨S1024x1, .i32⟩ : BufTy).Contents (Elt F)),
    unary main_v17 main_v20 (broadcastInDim S1024x1024 ![0, 1] bcast_S1x1024_S1024x1024_0_1 : (⟨S1x1024, .i32⟩ : BufTy).Contents (Elt F) → (⟨S1024x1024, .i32⟩ : BufTy).Contents (Elt F)),
    unary main_v19 main_v21 (broadcastInDim S1024x1024 ![0, 1] bcast_S1024x1_S1024x1024_0_1 : (⟨S1024x1, .i32⟩ : BufTy).Contents (Elt F) → (⟨S1024x1024, .i32⟩ : BufTy).Contents (Elt F)),
    binary main_v20 main_v21 main_v22 (subi : (⟨S1024x1024, .i32⟩ : BufTy).Contents (Elt F) → (⟨S1024x1024, .i32⟩ : BufTy).Contents (Elt F) → (⟨S1024x1024, .i32⟩ : BufTy).Contents (Elt F)),
    nullary main_v23 (iotaInDim S1024 32 0),
    unary main_v23 main_v24 (broadcastInDim S1024x1 ![0] bcast_S1024_S1024x1_0 : (⟨S1024, .i32⟩ : BufTy).Contents (Elt F) → (⟨S1024x1, .i32⟩ : BufTy).Contents (Elt F)),
    nullary main_c_4 (constantI S_ 32 2047#32),
    unary main_c_4 main_v25 (broadcastInDim S1024x1 ![] bcast_S_S1024x1 : (⟨S_, .i32⟩ : BufTy).Contents (Elt F) → (⟨S1024x1, .i32⟩ : BufTy).Contents (Elt F)),
    binary main_v24 main_v25 main_v26 (muli : (⟨S1024x1, .i32⟩ : BufTy).Contents (Elt F) → (⟨S1024x1, .i32⟩ : BufTy).Contents (Elt F) → (⟨S1024x1, .i32⟩ : BufTy).Contents (Elt F)),
    unary main_v26 main_v27 (broadcastInDim S1024x1024 ![0, 1] bcast_S1024x1_S1024x1024_0_1 : (⟨S1024x1, .i32⟩ : BufTy).Contents (Elt F) → (⟨S1024x1024, .i32⟩ : BufTy).Contents (Elt F)),
    binary main_v22 main_v27 main_v28 (addi : (⟨S1024x1024, .i32⟩ : BufTy).Contents (Elt F) → (⟨S1024x1024, .i32⟩ : BufTy).Contents (Elt F) → (⟨S1024x1024, .i32⟩ : BufTy).Contents (Elt F)),
    reshape main_v28 main_v29 rfl shapeCasts_S1024x1024_S1048576 ]

/-- The relative shift, first part: the scores re-read, and the take's first eight operations (its select the seventh)
    set in at its call site: the index vector wrapped where negative, as a column. -/
abbrev opsD1 : List (HloOp τ sig (Elt F)) :=
  [ reshape main_v13 main_v30 rfl shapeCasts_S16x2048x2047_S16x2x2096128,
    TRef.nullary main_call1.c (constantI S_ 32 0#32),
    TRef.unary main_call1.c main_call1.v0 (broadcastInDim S1048576 ![] bcast_S_S1048576),
    TRef.binary (.of main_v29) main_call1.v0 main_call1.v1 (cmpi .slt),
    TRef.nullary main_call1.c_0 (constantI S_ 32 2096128#32),
    TRef.unary main_call1.c_0 main_call1.v2 (broadcastInDim S1048576 ![] bcast_S_S1048576),
    TRef.binary (.of main_v29) main_call1.v2 main_call1.v3 addi,
    TRef.ternary main_call1.v1 main_call1.v3 (.of main_v29) main_call1.call0.v0 select,
    TRef.unary main_call1.call0.v0 main_call1.v5 (broadcastInDim S1048576x1 ![0] bcast_S1048576_S1048576x1_0) ]

/-- The take's range test of the index column, reduced along its unit axis. -/
abbrev opsD2 : List (HloOp τ sig (Elt F)) :=
  [ TRef.nullary main_call1.c_1 (constantI S1 32 2096127#32),
    TRef.nullary main_call1.c_2 (constantI S_ 32 0#32),
    TRef.unary main_call1.c_2 main_call1.v6 (broadcastInDim S1048576x1 ![] bcast_S_S1048576x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S1048576x1 ![0, 1] bcast_S1x1_S1048576x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1048576x1_S1048576_d1 h_S_) ]

/-- The take's gather. -/
abbrev opsD3 : List (HloOp τ sig (Elt F)) :=
  [ TRef.binary (.of main_v30) main_call1.v5 main_call1.v13 (fun x i => Host.gather gather_S16x2x2096128_S1048576x1_S16x2x1048576_01_2_n_n_2_1_1621 x i)
 ]

/-- The take's last four: the range test spread over the result, the fill value, the choice. -/
abbrev opsD4 : List (HloOp τ sig (Elt F)) :=
  [ TRef.unary main_call1.v12 main_call1.v14 (broadcastInDim S16x2x1048576 ![2] bcast_S1048576_S16x2x1048576_2),
    TRef.nullary main_call1.cst (constant S_ .f32 0x7FC00000#32),
    TRef.unary main_call1.cst main_call1.v15 (broadcastInDim S16x2x1048576 ![] bcast_S_S16x2x1048576),
    TRef.ternary main_call1.v14 main_call1.v13 main_call1.v15 main_call1.v16 select ]

/-- The result re-read. -/
abbrev opsD5 : List (HloOp τ sig (Elt F)) :=
  [ reshape main_v31 main_v32 rfl shapeCasts_S16x2x1048576_S2x16x1024x1024
 ]

/-- The operations in order, the two calls set in at their sites. -/
abbrev ops : List (HloOp τ sig (Elt F)) :=
  opsA ++ (opsB ++ (opsC ++ (opsD1 ++ (opsD2 ++ (opsD3 ++ (opsD4 ++ opsD5))))))

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

-- sixty-six steps in one chain, each one level deeper than the last
set_option maxRecDepth 2048 in
/-- @main is that straight line: the callees' definitions unfolded at their calls and the records at their fields,
    both sides are one chain of steps once sequencing is re-associated. -/
theorem main_eq (c : Dev nD) : main (F := F) c = seq ops := by
  simp only [main, fn_clip.body, fn_where.body, fn_take.body, ops, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., nullary_bufs_sub .., nullary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..⟩

theorem opsB_sub : (opsB : List (HloOp τ sig (Elt F))).Forall fun op => op.bufs ⊆ tcRefs τ sig :=
  ⟨binary_bufs_sub .., reshape_bufs_sub .., unary_bufs_sub .., reshape_bufs_sub .., binary_bufs_sub ..⟩

theorem opsC_sub : (opsC : List (HloOp τ sig (Elt F))).Forall fun op => op.bufs ⊆ tcRefs τ sig :=
  ⟨nullary_bufs_sub .., nullary_bufs_sub .., unary_bufs_sub .., binary_bufs_sub ..,
    unary_bufs_sub .., nullary_bufs_sub .., unary_bufs_sub .., unary_bufs_sub .., unary_bufs_sub .., binary_bufs_sub ..,
    nullary_bufs_sub .., unary_bufs_sub .., nullary_bufs_sub .., unary_bufs_sub .., binary_bufs_sub .., unary_bufs_sub ..,
    binary_bufs_sub .., reshape_bufs_sub ..⟩

theorem opsD1_sub : (opsD1 : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub ..⟩

theorem opsD2_sub : (opsD2 : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., binary_bufs_sub .., nullary_bufs_sub .., binary_bufs_sub ..⟩

theorem opsD3_sub : (opsD3 : List (HloOp τ sig (Elt F))).Forall fun op => op.bufs ⊆ tcRefs τ sig :=
  binary_bufs_sub ..

theorem opsD4_sub : (opsD4 : List (HloOp τ sig (Elt F))).Forall fun op => op.bufs ⊆ tcRefs τ sig :=
  ⟨unary_bufs_sub .., nullary_bufs_sub .., unary_bufs_sub .., ternary_bufs_sub ..⟩

theorem opsD5_sub : (opsD5 : List (HloOp τ sig (Elt F))).Forall fun op => op.bufs ⊆ tcRefs τ sig :=
  reshape_bufs_sub ..

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp opsA_sub op h, List.forall_iff_forall_mem.mp opsB_sub op h,
      List.forall_iff_forall_mem.mp opsC_sub op h, List.forall_iff_forall_mem.mp opsD1_sub op h,
      List.forall_iff_forall_mem.mp opsD2_sub op h, List.forall_iff_forall_mem.mp opsD3_sub op h,
      List.forall_iff_forall_mem.mp opsD4_sub op h, List.forall_iff_forall_mem.mp opsD5_sub op h]

/-! ## Each stretch read back, from any contents -/

-- the gather and the reduction are folds and searches over their operand's elements: the equations below never look
-- inside them, so they stay folded while the two sides are compared
attribute [local irreducible] Host.reduce Host.gather

/-- After the first stretch the gathered rows are the shared function of the position table. -/
theorem A_v8 (V : Valuation τ sig (Elt F)) :
    after opsA V (main_v8 : DevRef τ sig) = Shift.rows (V (main_arg1 : DevRef τ sig)) := by
  after_results_simp
  rfl

/-- After the second stretch the scores are the two products of the queries, the gathered rows and the dense matrix. -/
theorem B_v13 (V : Valuation τ sig (Elt F)) :
    after opsB V (main_v13 : DevRef τ sig)
      = pre (shapeCast S16x2048x64 (V (main_arg0 : DevRef τ sig)) shapeCasts_S2x16x1024x64_S16x2048x64)
          (V (main_v8 : DevRef τ sig)) (V (main_arg2 : DevRef τ sig)) := by
  after_results_simp
  rfl

/-- After the third stretch the index vector is the shared one, whatever the contents before. -/
theorem C_v29 (V : Valuation τ sig (Elt F)) : after opsC V (main_v29 : DevRef τ sig) = Shift.relIdx := by
  after_results_simp
  rfl

/-- The scores re-read. -/
theorem D1_v30 (V : Valuation τ sig (Elt F)) :
    after opsD1 V (main_v30 : DevRef τ sig)
      = (shapeCast S16x2x2096128 (V (main_v13 : DevRef τ sig)) shapeCasts_S16x2048x2047_S16x2x2096128
          : FVec F S16x2x2096128 .f32) := by
  after_results_simp
  rfl

/-- The index column: the index vector wrapped where negative, as a column. -/
theorem D1_v5 (V : Valuation τ sig (Elt F)) :
    after opsD1 V (main_call1_v5 : DevRef τ sig)
      = (broadcastInDim S1048576x1 ![0] bcast_S1048576_S1048576x1_0
          (select (cmpi .slt (V (main_v29 : DevRef τ sig)) (broadcastInDim S1048576 ![] bcast_S_S1048576 (constantI S_ 32 0#32)))
            (addi (V (main_v29 : DevRef τ sig)) (broadcastInDim S1048576 ![] bcast_S_S1048576 (constantI S_ 32 2096128#32)))
            (V (main_v29 : DevRef τ sig))) : IVec S1048576x1 32) := by
  after_results_simp
  rfl

/-- The range test of the index column, reduced along its unit axis. -/
theorem D2_v12 (V : Valuation τ sig (Elt F)) :
    after opsD2 V (main_call1_v12 : DevRef τ sig)
      = (Host.reduce IntOp.andi
          (andi (cmpi .sge (V (main_call1_v5 : DevRef τ sig)) (broadcastInDim S1048576x1 ![] bcast_S_S1048576x1 (constantI S_ 32 0#32)))
            (cmpi .sle (V (main_call1_v5 : DevRef τ sig)) (broadcastInDim S1048576x1 ![0, 1] bcast_S1x1_S1048576x1_0_1
              (broadcastInDim S1x1 ![1] bcast_S1_S1x1_1 (constantI S1 32 2096127#32)))))
          (constantI S_ 1 1#1) reducesTo_S1048576x1_S1048576_d1 h_S_ : IVec S1048576 1) := by
  after_results_simp
  rfl

/-- The gather of the re-read scores at the index column. -/
theorem D3_v13 (V : Valuation τ sig (Elt F)) :
    after opsD3 V (main_call1_v13 : DevRef τ sig)
      = (Host.gather gather_S16x2x2096128_S1048576x1_S16x2x1048576_01_2_n_n_2_1_1621
          (V (main_v30 : DevRef τ sig)) (V (main_call1_v5 : DevRef τ sig)) : FVec F S16x2x1048576 .f32) := by
  after_results_simp
  rfl

/-- The take's result: the gathered entry where the index is in range, the fill value elsewhere. -/
theorem D4_v31 (V : Valuation τ sig (Elt F)) :
    after opsD4 V (main_v31 : DevRef τ sig)
      = (select (broadcastInDim S16x2x1048576 ![2] bcast_S1048576_S16x2x1048576_2 (V (main_call1_v12 : DevRef τ sig)))
          (V (main_call1_v13 : DevRef τ sig))
          (broadcastInDim S16x2x1048576 ![] bcast_S_S16x2x1048576 (constant S_ .f32 0x7FC00000#32))
          : FVec F S16x2x1048576 .f32) := by
  after_results_simp
  rfl

/-- The result buffer is the take's result re-read. -/
theorem D5_v32 (V : Valuation τ sig (Elt F)) :
    after opsD5 V (main_v32 : DevRef τ sig)
      = (shapeCast S2x16x1024x1024 (V (main_v31 : DevRef τ sig)) shapeCasts_S16x2x1048576_S2x16x1024x1024
          : FVec F S2x16x1024x1024 .f32) := by
  after_results_simp
  rfl

/-! ## What each stretch leaves alone -/

theorem A_arg0 (V : Valuation τ sig (Elt F)) : after opsA V (main_arg0 : DevRef τ sig) = V (main_arg0 : DevRef τ sig) := by
  after_results_simp
theorem A_arg1 (V : Valuation τ sig (Elt F)) : after opsA V (main_arg1 : DevRef τ sig) = V (main_arg1 : DevRef τ sig) := by
  after_results_simp
theorem A_arg2 (V : Valuation τ sig (Elt F)) : after opsA V (main_arg2 : DevRef τ sig) = V (main_arg2 : DevRef τ sig) := by
  after_results_simp
theorem B_arg0 (V : Valuation τ sig (Elt F)) : after opsB V (main_arg0 : DevRef τ sig) = V (main_arg0 : DevRef τ sig) := by
  after_results_simp
theorem B_arg1 (V : Valuation τ sig (Elt F)) : after opsB V (main_arg1 : DevRef τ sig) = V (main_arg1 : DevRef τ sig) := by
  after_results_simp
theorem B_arg2 (V : Valuation τ sig (Elt F)) : after opsB V (main_arg2 : DevRef τ sig) = V (main_arg2 : DevRef τ sig) := by
  after_results_simp
theorem C_v13 (V : Valuation τ sig (Elt F)) : after opsC V (main_v13 : DevRef τ sig) = V (main_v13 : DevRef τ sig) := by
  after_results_simp
theorem C_arg0 (V : Valuation τ sig (Elt F)) : after opsC V (main_arg0 : DevRef τ sig) = V (main_arg0 : DevRef τ sig) := by
  after_results_simp
theorem C_arg1 (V : Valuation τ sig (Elt F)) : after opsC V (main_arg1 : DevRef τ sig) = V (main_arg1 : DevRef τ sig) := by
  after_results_simp
theorem C_arg2 (V : Valuation τ sig (Elt F)) : after opsC V (main_arg2 : DevRef τ sig) = V (main_arg2 : DevRef τ sig) := by
  after_results_simp
theorem D2_v5 (V : Valuation τ sig (Elt F)) :
    after opsD2 V (main_call1_v5 : DevRef τ sig) = V (main_call1_v5 : DevRef τ sig) := by
  after_results_simp
theorem D2_v30 (V : Valuation τ sig (Elt F)) : after opsD2 V (main_v30 : DevRef τ sig) = V (main_v30 : DevRef τ sig) := by
  after_results_simp
theorem D3_v12 (V : Valuation τ sig (Elt F)) :
    after opsD3 V (main_call1_v12 : DevRef τ sig) = V (main_call1_v12 : DevRef τ sig) := by
  after_results_simp

/-- The five stretches of the shift leave the three arguments alone. -/
theorem D_args (V : Valuation τ sig (Elt F)) :
    after opsD5 (after opsD4 (after opsD3 (after opsD2 (after opsD1 V)))) (main_arg0 : DevRef τ sig) = V (main_arg0 : DevRef τ sig)
    ∧ after opsD5 (after opsD4 (after opsD3 (after opsD2 (after opsD1 V)))) (main_arg1 : DevRef τ sig) = V (main_arg1 : DevRef τ sig)
    ∧ after opsD5 (after opsD4 (after opsD3 (after opsD2 (after opsD1 V)))) (main_arg2 : DevRef τ sig) = V (main_arg2 : DevRef τ sig) := by
  refine ⟨?_, ?_, ?_⟩ <;> after_results_simp

/-! ## The whole line -/

/-- The shift's five stretches together: the take of the re-read scores at the index vector, re-read. -/
theorem D_v32 (V : Valuation τ sig (Elt F)) :
    after opsD5 (after opsD4 (after opsD3 (after opsD2 (after opsD1 V)))) (main_v32 : DevRef τ sig)
      = shapeCast S2x16x1024x1024
          (Shift.take (shapeCast S16x2x2096128 (V (main_v13 : DevRef τ sig)) shapeCasts_S16x2048x2047_S16x2x2096128)
            (V (main_v29 : DevRef τ sig)))
          shapeCasts_S16x2x1048576_S2x16x1024x1024 := by
  rw [D5_v32, D4_v31, D3_v12, D3_v13, D2_v12, D2_v30, D2_v5, D1_v5, D1_v30]
  rfl

/-- The fold of the operations, read at the result buffer, is the shift of the two products over the gathered rows. -/
theorem out_eq (V : Valuation τ sig (Elt F)) :
    after ops V (main_v32 : DevRef τ sig)
      = Shift.shift (pre (shapeCast S16x2048x64 (V (main_arg0 : DevRef τ sig)) shapeCasts_S2x16x1024x64_S16x2048x64)
          (Shift.rows (V (main_arg1 : DevRef τ sig))) (V (main_arg2 : DevRef τ sig))) := by
  simp only [ops, after_append]
  rw [D_v32, C_v29, C_v13, B_v13, A_v8, A_arg0, A_arg2]
  rfl

theorem arg0_eq (V : Valuation τ sig (Elt F)) : after ops V (main_arg0 : DevRef τ sig) = V (main_arg0 : DevRef τ sig) := by
  simp only [ops, after_append]
  rw [(D_args _).1, C_arg0, B_arg0, A_arg0]
theorem arg1_eq (V : Valuation τ sig (Elt F)) : after ops V (main_arg1 : DevRef τ sig) = V (main_arg1 : DevRef τ sig) := by
  simp only [ops, after_append]
  rw [(D_args _).2.1, C_arg1, B_arg1, A_arg1]
theorem arg2_eq (V : Valuation τ sig (Elt F)) : after ops V (main_arg2 : DevRef τ sig) = V (main_arg2 : DevRef τ sig) := by
  simp only [ops, after_append]
  rw [(D_args _).2.2, C_arg2, B_arg2, A_arg2]

/-- On every device, for any float values, from any memory with zero counters: every weakly fair execution of @main
    terminates with the result at the shift of the two products over the gathered rows and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
        = Shift.shift (pre (shapeCast S16x2048x64 (m ((c.tc : Thread nD τ).loc main_arg0)) shapeCasts_S2x16x1024x64_S16x2048x64)
            (Shift.rows (m ((c.tc : Thread nD τ).loc main_arg1))) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v32).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The two host products of the reference, read at an entry.

  Between the gathered rows of the position table and the relative shift the reference multiplies twice. First the
  position rows E (2047 × 1024) by the dense matrix W (1024 × 1024): entry (m, j) is Σ_k E(m, k) · W(k, j). The
  product is re-read as [2047, 16, 64] and its first two axes exchanged, so entry (h, m, d) of the operand is the
  product's entry (m, 64 h + d). Then, head by head, the queries against it over the sixty-four features: entry
  (h, n, m) is Σ_d Q(h, n, d) · operand(h, m, d). On the extended reals both are plain sums, so the whole is the
  double sum that the specification names the score.
-/
import proofs.«142479_j88115549045052_1_alg».proof.Proof.Gen.ReferenceIdeal
import proofs.«142479_j88115549045052_1_alg».proof.Proof.Spec
import proofs.«142479_j88115549045052_1_alg».proof.Proof.LibPlainDot
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Facts₀ Idealize.ShloMosaic Idealize.ShloMosaic.ValueIdx

/-! ## The plain product -/

/-- The plain product's dimension numbers are the library's plain ones at these extents. -/
theorem plain_eq : dot_S2047x1024_S1024x1024_S2047x1024_1_0_0_1_n_n = DotDims.plain 2047 1024 1024 := rfl

/-- A plain M×K by K×N host product at entry (p, q) is `Σ_k lhs (p, k) · rhs (k, q)`. -/
theorem plain_apply {φ₁ φ₂ : FTy} (M K N : Nat) (lhs : FVec Ideal ⟨2, ![M, K]⟩ φ₁) (rhs : FVec Ideal ⟨2, ![K, N]⟩ φ₂)
    (p : Fin M) (q : Fin N) :
    Host.dotGeneral (DotDims.plain M K N) none lhs rhs (ix2 p q) = ∑ k : Fin K, lhs (ix2 p k) * rhs (ix2 k q) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact PlainDot.lhs_row M K N _ _
      | ⟨1, _⟩ => exact (PlainDot.lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (PlainDot.rhs_row M K N _ _).trans hk
      | ⟨1, _⟩ => exact PlainDot.rhs_col M K N _ _)
  rw [el, er]

/-- The position rows projected by the dense matrix, at entry (m, j). -/
theorem proj_apply (E : FVec Ideal S2047x1024 .f32) (W : FVec Ideal S1024x1024 .f32) (m : Fin 2047) (j : Fin 1024) :
    Host.dotGeneral dot_S2047x1024_S1024x1024_S2047x1024_1_0_0_1_n_n none E W (ix2 m j) = Cert.Spec.proj E W m j := by
  rw [plain_eq]
  exact plain_apply 2047 1024 1024 E W m j

/-! ## The product per head: which operand entries an output entry reads -/

/-- The left operand's head coordinate is the output's. -/
theorem lhs_head (i : S16x2048x2047.Idx) (c : dot_S16x2048x64_S16x2047x64_S16x2048x2047_2_2_1_1_0_0.contr.Idx) :
    (dot_S16x2048x64_S16x2047x64_S16x2048x2047_2_2_1_1_0_0.lhsIdx i c 0).val = (i 0).val := by
  unfold DotDims.lhsIdx
  rw [dif_pos (show (0 : Fin S16x2048x64.rank) ∈ dot_S16x2048x64_S16x2047x64_S16x2048x2047_2_2_1_1_0_0.lhsBatch by
    simp [dot_S16x2048x64_S16x2047x64_S16x2048x2047_2_2_1_1_0_0])]
  rfl

/-- The left operand's row coordinate is the output's second. -/
theorem lhs_row (i : S16x2048x2047.Idx) (c : dot_S16x2048x64_S16x2047x64_S16x2048x2047_2_2_1_1_0_0.contr.Idx) :
    (dot_S16x2048x64_S16x2047x64_S16x2048x2047_2_2_1_1_0_0.lhsIdx i c 1).val = (i 1).val := by
  unfold DotDims.lhsIdx
  rw [dif_neg (show ¬(1 : Fin S16x2048x64.rank) ∈ dot_S16x2048x64_S16x2047x64_S16x2048x2047_2_2_1_1_0_0.lhsBatch by
      simp [dot_S16x2048x64_S16x2047x64_S16x2048x2047_2_2_1_1_0_0]),
    dif_pos (show (1 : Fin S16x2048x64.rank) ∈ dot_S16x2048x64_S16x2047x64_S16x2048x2047_2_2_1_1_0_0.lhsNonContracting by
      simp [dot_S16x2048x64_S16x2047x64_S16x2048x2047_2_2_1_1_0_0])]
  rfl

/-- The left operand's feature coordinate is the contraction index. -/
theorem lhs_feat (i : S16x2048x2047.Idx) (c : dot_S16x2048x64_S16x2047x64_S16x2048x2047_2_2_1_1_0_0.contr.Idx) :
    (dot_S16x2048x64_S16x2047x64_S16x2048x2047_2_2_1_1_0_0.lhsIdx i c 2).val = (c ⟨0, Nat.one_pos⟩).val :=
  dot_S16x2048x64_S16x2047x64_S16x2048x2047_2_2_1_1_0_0.lhsIdx_val_of_single rfl i c

/-- The right operand's head coordinate is the output's. -/
theorem rhs_head (i : S16x2048x2047.Idx) (c : dot_S16x2048x64_S16x2047x64_S16x2048x2047_2_2_1_1_0_0.contr.Idx) :
    (dot_S16x2048x64_S16x2047x64_S16x2048x2047_2_2_1_1_0_0.rhsIdx i c 0).val = (i 0).val := by
  unfold DotDims.rhsIdx
  rw [dif_pos (show (0 : Fin S16x2047x64.rank) ∈ dot_S16x2048x64_S16x2047x64_S16x2048x2047_2_2_1_1_0_0.rhsBatch by
    simp [dot_S16x2048x64_S16x2047x64_S16x2048x2047_2_2_1_1_0_0])]
  rfl

/-- The right operand's row coordinate is the output's third. -/
theorem rhs_row (i : S16x2048x2047.Idx) (c : dot_S16x2048x64_S16x2047x64_S16x2048x2047_2_2_1_1_0_0.contr.Idx) :
    (dot_S16x2048x64_S16x2047x64_S16x2048x2047_2_2_1_1_0_0.rhsIdx i c 1).val = (i 2).val := by
  unfold DotDims.rhsIdx
  rw [dif_neg (show ¬(1 : Fin S16x2047x64.rank) ∈ dot_S16x2048x64_S16x2047x64_S16x2048x2047_2_2_1_1_0_0.rhsBatch by
      simp [dot_S16x2048x64_S16x2047x64_S16x2048x2047_2_2_1_1_0_0]),
    dif_pos (show (1 : Fin S16x2047x64.rank) ∈ dot_S16x2048x64_S16x2047x64_S16x2048x2047_2_2_1_1_0_0.rhsNonContracting by
      simp [dot_S16x2048x64_S16x2047x64_S16x2048x2047_2_2_1_1_0_0])]
  rfl

/-- The right operand's feature coordinate is the contraction index. -/
theorem rhs_feat (i : S16x2048x2047.Idx) (c : dot_S16x2048x64_S16x2047x64_S16x2048x2047_2_2_1_1_0_0.contr.Idx) :
    (dot_S16x2048x64_S16x2047x64_S16x2048x2047_2_2_1_1_0_0.rhsIdx i c 2).val = (c ⟨0, Nat.one_pos⟩).val :=
  dot_S16x2048x64_S16x2047x64_S16x2048x2047_2_2_1_1_0_0.rhsIdx_val_of_single rfl i c

/-- The product per head at entry (h, n, m): `Σ_d X (h, n, d) · Y (h, m, d)`. -/
theorem heads_apply (X : FVec Ideal S16x2048x64 .f32) (Y : FVec Ideal S16x2047x64 .f32)
    (h : Fin 16) (n : Fin 2048) (m : Fin 2047) :
    Host.dotGeneral dot_S16x2048x64_S16x2047x64_S16x2048x2047_2_2_1_1_0_0 none X Y (ix3 h n m)
      = ∑ d : Fin 64, X (ix3 h n d) * Y (ix3 h m d) := by
  simp only [Host.dotGeneral]
  rw [Ideal.dotGeneral_apply,
    ← Equiv.sum_comp (contrEquiv1 dot_S16x2048x64_S16x2047x64_S16x2048x2047_2_2_1_1_0_0 64 rfl rfl).symm]
  refine Finset.sum_congr rfl fun d _ => ?_
  have hd := contrEquiv1_symm_val dot_S16x2048x64_S16x2047x64_S16x2048x2047_2_2_1_1_0_0 64 rfl rfl d
  have el : dot_S16x2048x64_S16x2047x64_S16x2048x2047_2_2_1_1_0_0.lhsIdx (ix3 h n m)
      ((contrEquiv1 dot_S16x2048x64_S16x2047x64_S16x2048x2047_2_2_1_1_0_0 64 rfl rfl).symm d) = ix3 h n d :=
    funext fun a => Fin.ext (by
      match a with
      | ⟨0, _⟩ => exact lhs_head _ _
      | ⟨1, _⟩ => exact lhs_row _ _
      | ⟨2, _⟩ => exact (lhs_feat _ _).trans hd)
  have er : dot_S16x2048x64_S16x2047x64_S16x2048x2047_2_2_1_1_0_0.rhsIdx (ix3 h n m)
      ((contrEquiv1 dot_S16x2048x64_S16x2047x64_S16x2048x2047_2_2_1_1_0_0 64 rfl rfl).symm d) = ix3 h m d :=
    funext fun a => Fin.ext (by
      match a with
      | ⟨0, _⟩ => exact rhs_head _ _
      | ⟨1, _⟩ => exact rhs_row _ _
      | ⟨2, _⟩ => exact (rhs_feat _ _).trans hd)
  rw [el, er]

/-! ## The regrouping between the products -/

/-- The projection regrouped per head: entry (h, m, d) of the exchanged array is the projection's entry (m, 64 h + d). -/
theorem regroup_apply (P : FVec Ideal S2047x1024 .f32) (h : Fin 16) (m : Fin 2047) (d : Fin 64) :
    transpose S16x2047x64 [1, 0, 2] (shapeCast S2047x16x64 P shapeCasts_S2047x1024_S2047x16x64)
        transposes_S2047x16x64_S16x2047x64_1_0_2 (ix3 h m d)
      = P (ix2 m (Cert.Spec.col h d)) := by
  refine (transpose_apply _ _ _ (ix3 h m d) (ix3 m h d) fun b => ?_).trans ?_
  · match b with
    | ⟨0, _⟩ => rfl
    | ⟨1, _⟩ => rfl
    | ⟨2, _⟩ => rfl
  · refine shapeCast_apply _ _ (ix3 m h d) (ix2 m (Cert.Spec.col h d)) ?_
    rw [Shape.rowMajor_val_two, Shape.rowMajor_val_three]
    show m.val * 1024 + (h.val * 64 + d.val) = (m.val * 16 + h.val) * 64 + d.val
    omega

/-! ## The two products together -/

theorem pre_eq (Q : FVec Ideal S16x2048x64 .f32) (E : FVec Ideal S2047x1024 .f32) (W : FVec Ideal S1024x1024 .f32) :
    Host.dotGeneral dot_S16x2048x64_S16x2047x64_S16x2048x2047_2_2_1_1_0_0 none Q
      (transpose S16x2047x64 [1, 0, 2] (shapeCast S2047x16x64 (Host.dotGeneral dot_S2047x1024_S1024x1024_S2047x1024_1_0_0_1_n_n none E W) shapeCasts_S2047x1024_S2047x16x64) transposes_S2047x16x64_S16x2047x64_1_0_2)
      = Cert.Spec.scoreArr Q E W := by
  funext i
  obtain ⟨h, n, m, rfl⟩ : ∃ (h : Fin 16) (n : Fin 2048) (m : Fin 2047), i = ix3 h n m := ⟨i 0, i 1, i 2, eq_ix3 i⟩
  rw [heads_apply, Cert.Spec.scoreArr_ix3]
  unfold Cert.Spec.score
  refine Finset.sum_congr rfl fun d _ => ?_
  rw [regroup_apply, proj_apply]

end Cert.ReferenceIdeal.RefValue

end
-- ==== Proof.Bridge.lean ====
/-
  The two programs share their first and last stretches: the selection of rows of the position table, and the relative
  shift. Each program's text spells them over its own copies of the shapes and side conditions; the copies are the same
  literals, so the functions are equal by unfolding the names.
-/
import proofs.«142479_j88115549045052_1_alg».proof.Proof.KShift
import proofs.«142479_j88115549045052_1_alg».proof.Proof.RShift

noncomputable section

namespace Cert.Bridge

open Idealize.ShloMosaic

variable {F : FTy → Type} [FloatOps F]

/-- The same rows of the position table. -/
theorem rows_eq (P : FVec F Cert.KernelIdeal.S2047x1024 .f32) :
    Cert.ReferenceIdeal.Shift.rows P = Cert.KernelIdeal.Shift.rows P := rfl

/-- The same flat indices. -/
theorem relIdx_eq : Cert.ReferenceIdeal.Shift.relIdx = Cert.KernelIdeal.Shift.relIdx := rfl

/-- The same gather with its range test. -/
theorem take_eq (x : FVec F Cert.KernelIdeal.S16x2x2096128 .f32) (ix : IVec Cert.KernelIdeal.S1048576 32) :
    Cert.ReferenceIdeal.Shift.take x ix = Cert.KernelIdeal.Shift.take x ix := rfl

/-- The same relative shift. -/
theorem shift_eq (X : FVec F Cert.KernelIdeal.S16x2048x2047 .f32) :
    Cert.ReferenceIdeal.Shift.shift X = Cert.KernelIdeal.Shift.shift X := rfl

/-- The query re-read by heads, the same in both. -/
theorem query_eq (x : FVec F Cert.KernelIdeal.S2x16x1024x64 .f32) :
    shapeCast Cert.ReferenceIdeal.S16x2048x64 x Cert.ReferenceIdeal.Facts₀.shapeCasts_S2x16x1024x64_S16x2048x64
      = shapeCast Cert.KernelIdeal.S16x2048x64 x Cert.KernelIdeal.Facts₀.shapeCasts_S2x16x1024x64_S16x2048x64 := rfl

end Cert.Bridge

end
-- ==== Proof.lean ====
/-
  Relative position scores with the Transformer-XL shift: the kernel's program against its reference.

  Both programs select rows of the position table by the same clipped index vector (E), project them by the dense matrix
  W, re-read the projection by heads, contract it with the query re-read as [16, 2048, 64] (Q) over each head's
  sixty-four features, and apply the same relative shift to the scores. The reference does the two products on the host,
  on 2047 rows. The kernel's program appends one zero row to E, computes the projection in a first region (two row blocks
  of 1024), the scores in a second region (per head, 2 × 2 blocks of 1024 × 1024, the second operand transposed in the
  body), and drops the score column that comes from the appended row before the shift. Over the extended reals the
  narrowing of the operands to the sixteen-bit format is the identity, a block product into the zero array is the plain
  sum over the shared axis, and the blocks tile their arrays; so both score arrays are the one double sum
  Σ_d Q(h, n, d) · Σ_k E(m, k) · W(k, 64 h + d), entry by entry, with no law of arithmetic used beyond reading the same
  sums — in particular nothing is asked of the inputs' finiteness. The shared first and last stretches are never opened.

  The frames of the two kernel programs are their generated frame certificates; the reference's frame is its run with the
  result dropped; the idealization rewrote nothing, so its conjunct is trivial.
-/
import proofs.«142479_j88115549045052_1_alg».proof.Defs
import proofs.«142479_j88115549045052_1_alg».proof.Proof.Gen.Kernel
import proofs.«142479_j88115549045052_1_alg».proof.Proof.Gen.Kernel.Frame
import proofs.«142479_j88115549045052_1_alg».proof.Proof.Gen.KernelIdeal
import proofs.«142479_j88115549045052_1_alg».proof.Proof.Gen.KernelIdeal.Frame
import proofs.«142479_j88115549045052_1_alg».proof.Proof.Gen.ReferenceIdeal
import proofs.«142479_j88115549045052_1_alg».proof.Proof.Gen.Pre_finite_inputs
import proofs.«142479_j88115549045052_1_alg».proof.Proof.KRun
import proofs.«142479_j88115549045052_1_alg».proof.Proof.KFinal
import proofs.«142479_j88115549045052_1_alg».proof.Proof.RefRun
import proofs.«142479_j88115549045052_1_alg».proof.Proof.RefValue
import proofs.«142479_j88115549045052_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs end with the relative shift of the specification's score array of the same three arguments. -/
theorem algebraic : Cert.algebraic_KernelIdeal_ReferenceIdeal := by
  intro m ρ m' ρ' _ hagree
  refine ⟨fun c => Cert.KernelIdeal.Shift.shift (F := Ideal) (Cert.Spec.scoreArr
      (shapeCast Cert.KernelIdeal.S16x2048x64 (m ((c.tc : Thread Cert.KernelIdeal.nD Cert.KernelIdeal.τ).loc Cert.KernelIdeal.main_arg0))
        Cert.KernelIdeal.Facts₀.shapeCasts_S2x16x1024x64_S16x2048x64)
      (Cert.KernelIdeal.Shift.rows (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))), ?_, ?_⟩
  · exact (θ_run Cert.KernelIdeal.defs _ _).mono
      (fun r h c => ⟨(h c).1.trans (Cert.KernelIdeal.Final.result m ρ c), (h c).2⟩)
      (Cert.KernelIdeal.GenRun.run_main (F := Ideal) m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2]
    unfold Cert.ReferenceIdeal.RefRun.pre
    rw [Cert.ReferenceIdeal.RefValue.pre_eq, Cert.Bridge.shift_eq, Cert.Bridge.rows_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
